-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part3 {F : FTy → Type} [FloatOps F] (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S64 .f32) (main_arg10 : FVec F S64x128 .f32) (main_arg11 : FVec F S128 .f32) (main_arg12 : FVec F S128x128 .f32) (main_arg13 : FVec F S128 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_v48 main_v49 main_v50

def fn_part1 {F : FTy → Type} [FloatOps F] (main_arg6 : FVec F S128x128 .f32) (main_arg7 : FVec F S128 .f32) (main_arg8 : FVec F S128x64 .f32) (main_arg9 : FVec F S64 .f32) (main_arg10 : FVec F S64x128 .f32) (main_arg11 : FVec F S128 .f32) (main_arg12 : FVec F S128x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x256 .f32) (main_arg1 : IVec S800000 32) (main_arg2 : IVec S800000 32) (main_arg3 : FVec F S800000 .f32) (main_arg4 : FVec F S256x128 .f32) (main_arg5 : FVec F S128 .f32) (main_arg6 : FVec F S128x128 .f32) (main_arg7 : FVec F S128 .f32) (main_arg8 : FVec F S128x64 .f32) (main_arg9 : FVec F S64 .f32) (main_arg10 : FVec F S64x128 .f32) (main_arg11 : FVec F S128 .f32) (main_arg12 : FVec F S128x128 .f32) (main_arg13 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_v13 main_v16
-- ==== Kernel.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S50000x128 : Shape := ⟨2, ![50000, 128]⟩
abbrev S2000x256 : Shape := ⟨2, ![2000, 256]⟩
abbrev S2000x128 : Shape := ⟨2, ![2000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩

abbrev nBuf : Space → Nat
  | .hbm => 75
  | .vmem => 42
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S50000x128, .f32⟩
  | .hbm, ⟨15, _⟩ => ⟨S800000x1, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S800000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x64, .f32⟩
  | .hbm, ⟨53, _⟩ => ⟨S800000x1, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .f32⟩
  | .hbm, ⟨63, _⟩ => ⟨S800000x64, .f32⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S1x64, .f32⟩
  | .hbm, ⟨70, _⟩ => ⟨S50000x64, .f32⟩
  | .hbm, ⟨71, _⟩ => ⟨S1x128, .f32⟩
  | .hbm, ⟨72, _⟩ => ⟨S50000x128, .f32⟩
  | .hbm, ⟨73, _⟩ => ⟨S1x128, .f32⟩
  | .hbm, ⟨74, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S64x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_1 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem3_0 : DmaSem sig := 40
abbrev cc7_sem3_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .f32 = 32 ∨ (Rect.block (s := S50000x128) S2000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x128.size a ≤ S50000x128.size a
  hwx7_3 : ∀ i : grid7.Coords, EltTy.bits .f32 = 32 ∨ (Rect.block (s := S50000x128) S2000x128.size (cc7_transform_3 i) (hinb7_3 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S2000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v47) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v48) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v49) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v49) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v50) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v51) S2000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x256 : Shape := ⟨2, ![50000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x128 : Shape := ⟨2, ![64, 128]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S50000x128, .f32⟩
  | .hbm, ⟨15, _⟩ => ⟨S800000x1, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S_, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S800000x1, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x64, .f32⟩
  | .hbm, ⟨61, _⟩ => ⟨S800000x1, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x64, .f32⟩
  | .hbm, ⟨71, _⟩ => ⟨S800000x64, .f32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call0_cst : Ref sig .tc := ⟨.hbm, 34, rfl⟩
abbrev main_call0_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_1 : Ref sig .tc := ⟨.hbm, 39, rfl⟩
abbrev main_v20 : Ref sig .tc := ⟨.hbm, 40, rfl⟩
abbrev main_v21 : Ref sig .tc := ⟨.hbm, 41, rfl⟩
abbrev main_c_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_cst : Ref sig .tc := ⟨.hbm, 57, rfl⟩
abbrev main_call1_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_4 : Ref sig .tc := ⟨.hbm, 62, rfl⟩
abbrev main_v38 : Ref sig .tc := ⟨.hbm, 63, rfl⟩
abbrev main_v39 : Ref sig .tc := ⟨.hbm, 64, rfl⟩
abbrev main_c_5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call2_cst : Ref sig .tc := ⟨.hbm, 84, rfl⟩
abbrev main_call2_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.Spec.lean ====
/-
  The mathematics both programs compute, over the extended reals, stated once and without either program.

  A graph encoder: three graph-convolution layers followed by a two-layer projection.  One graph convolution sends a
  node-feature matrix `h` to `A · (h · W) + b`, where `A` is the sparse weighted adjacency (a weighted gather of rows
  followed by a scatter-add, the same host computation in both programs, kept abstract here as a function `sp`), the first
  two layers followed by a rectifier.  The projection is `relu (e · P1 + pb1) · P2 + pb2`.

  `mm` is the matrix product (each entry the sum over the contracted coordinate of the products of the entries),
  `bias` adds a row vector to every row, `biasRow` the same with the vector given as a one-row matrix, `relu` is the
  maximum with zero, entry by entry.
-/
import Idealize.ShloMosaic.PureOps.Ideal
import Idealize.ShloMosaic.PureOps.Ideal.Laws
import Idealize.ShloMosaic.Lib.ValueIdx
import Idealize.ShloMosaic.Lib.StackMember

noncomputable section

open scoped BigOperators
open Idealize.ShloMosaic Idealize.ShloMosaic.ValueIdx

namespace Cert.Spec

/-- An `a × b` matrix of extended reals, indexed as the programs index a rank-2 array. -/
abbrev Mat (a b : Nat) : Type := FVec Ideal ⟨2, ![a, b]⟩ .f32
/-- A vector of `b` extended reals. -/
abbrev Row (b : Nat) : Type := FVec Ideal ⟨1, ![b]⟩ .f32

/-- The matrix product. -/
def mm {a k b : Nat} (X : Mat a k) (W : Mat k b) : Mat a b := Host.dotGeneral (DotDims.plain a k b) none X W

/-- An entry of the product is the sum over the contracted coordinate of the products of the entries. -/
theorem mm_apply {a k b : Nat} (X : Mat a k) (W : Mat k b) (p : Fin a) (q : Fin b) :
    mm X W (ix2 p q) = ∑ c : Fin k, X (ix2 p c) * W (ix2 c q) :=
  StackMember.dotGeneral_plain_apply none X W p q

/-- Rows of a product: if row `j 0` of a block `xb` is row `i 0` of `X`, and column `j 1` of `wb` is column `i 1` of `W`, entry `j` of
    `xb · wb` is entry `i` of `X · W`: the same sum over the contracted coordinate. -/
theorem mm_rows {a A K B : Nat} (X : Mat A K) (W : Mat K B) (xb : Mat a K) (wb : Mat K B)
    (j : (⟨2, ![a, B]⟩ : Shape).Idx) (i : (⟨2, ![A, B]⟩ : Shape).Idx)
    (hx : ∀ k : Fin K, xb (ix2 (j 0) k) = X (ix2 (i 0) k)) (hw : ∀ k : Fin K, wb (ix2 k (j 1)) = W (ix2 k (i 1))) :
    mm xb wb j = mm X W i := by
  obtain ⟨p, q, rfl⟩ : ∃ p q, j = ix2 p q := ⟨j 0, j 1, eq_ix2 j⟩
  obtain ⟨r, s, rfl⟩ : ∃ r s, i = ix2 r s := ⟨i 0, i 1, eq_ix2 i⟩
  rw [mm_apply, mm_apply]
  exact Finset.sum_congr rfl fun k _ => congrArg₂ (· * ·) (hx k) (hw k)

/-- The matrix unit's product into a zero accumulator is the matrix product: at the extended reals both are the same
    sum, whatever the order the unit adds in. -/
theorem matmul_zero_eq_mm {a k b : Nat} (X : Mat a k) (W : Mat k b) :
    matmul (DotDims.plain a k b) none X W (constant ⟨2, ![a, b]⟩ .f32 0x00000000#32) = mm X W := by
  funext j
  show FloatOps.matmul _ none X W _ j = FloatOps.dotGeneral _ none _ X W j
  rw [Ideal.matmul_constant_zero_apply, Ideal.dotGeneral_apply]

/-- A row vector added to every row. -/
def bias {a b : Nat} (X : Mat a b) (v : Row b) : Mat a b := fun i => X i + v (ix1 (i 1))
/-- The same with the vector given as a one-row matrix. -/
def biasRow {a b : Nat} (X : Mat a b) (v : Mat 1 b) : Mat a b := fun i => X i + v (ix2 0 (i 1))
/-- The rectifier, entry by entry. -/
def relu {a b : Nat} (X : Mat a b) : Mat a b := fun i => max (X i) (Ideal.ofBits .f32 0x00000000#32)

theorem bias_apply {a b : Nat} (X : Mat a b) (v : Row b) (i : (⟨2, ![a, b]⟩ : Shape).Idx) : bias X v i = X i + v (ix1 (i 1)) := rfl
theorem biasRow_apply {a b : Nat} (X : Mat a b) (v : Mat 1 b) (i : (⟨2, ![a, b]⟩ : Shape).Idx) : biasRow X v i = X i + v (ix2 0 (i 1)) := rfl
theorem relu_apply {a b : Nat} (X : Mat a b) (i : (⟨2, ![a, b]⟩ : Shape).Idx) : relu X i = max (X i) (Ideal.ofBits .f32 0x00000000#32) := rfl

/-- The embedding: three graph convolutions, `sp128` and `sp64` the sparse aggregation at 128 and at 64 features. -/
def emb (sp128 : Mat 50000 128 → Mat 50000 128) (sp64 : Mat 50000 64 → Mat 50000 64)
    (x : Mat 50000 256) (W1 : Mat 256 128) (b1 : Row 128) (W2 : Mat 128 128) (b2 : Row 128) (W3 : Mat 128 64) (b3 : Row 64) :
    Mat 50000 64 :=
  bias (sp64 (mm (relu (bias (sp128 (mm (relu (bias (sp128 (mm x W1)) b1)) W2)) b2)) W3)) b3

/-- The projection head on an embedding. -/
def proj (e : Mat 50000 64) (P1 : Mat 64 128) (pb1 : Row 128) (P2 : Mat 128 128) (pb2 : Row 128) : Mat 50000 128 :=
  bias (mm (relu (bias (mm e P1) pb1)) P2) pb2

end Cert.Spec

end
-- ==== Proof.Region0.lean ====
/-
  Region 0 of the kernel program (the first matrix-product call), as a value: whatever the TensorCore's buffers hold when
  the region is entered, its result array ends holding the product `X · W` of its two operand arrays, `X` of 50000 rows.
  Each of the 25 grid points multiplies a block of 2000 rows of `X` by the whole of `W`: row `p` of block `t` of the product
  is row `2000 t + p` of `X · W`, a sum over the contracted coordinate, and the blocks tile the array.
-/
import proofs.«163416_j36309653520480_1_alg».proof.Proof.KernelIdealFrame
import proofs.«163416_j36309653520480_1_alg».proof.Proof.Spec
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R0

open Cert.KernelIdeal Cert.KernelIdeal.Gen Cert.KernelIdeal.GenP Cert.Spec

theorem hz : (![0, 0] : Fin 2 → Nat) = fun _ => 0 := funext fun a => by fin_cases a <;> rfl

variable (V : (c : Dev nD) → (b : Ref sig .tc) → Buf (Elt Ideal) ((c : Thread nD τ).loc b))

/-- The body's stored value: the product of its two loaded blocks (the narrowing of the operands is the identity on
    extended reals). -/
theorem pay (x0 : Vec Ideal S2000x256 .f32) (x1 : Vec Ideal S256x128 .f32) : k0_pay1 x0 x1 = Spec.mm x0 x1 := by
  unfold k0_pay1
  first | exact Spec.matmul_zero_eq_mm x0 x1 | (simp only [shapeCast_self]; exact Spec.matmul_zero_eq_mm x0 x1)

/-- The index maps over the grid: point `t` takes row block `t` of the left operand and of the result, and the whole right
    operand. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed (c : Dev nD) (t : Fin cfg0.N) :
    (dat0 V c).flushed 2 t = ((cfg0.win 2).blk t).view.read (Elt Ideal) (Spec.mm (V c main_arg0) (V c main_arg4)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  rw [pay]
  obtain ⟨e00, e01, e10, e11, e20, e21⟩ := idx t
  funext j
  show Spec.mm (iblk0 V c 0 t) (iblk0 V c 1 t) j = Spec.mm (V c main_arg0) (V c main_arg4) (((cfg0.win 2).blk t).view.emb j)
  refine mm_rows (V c main_arg0) (V c main_arg4) (iblk0 V c 0 t) (iblk0 V c 1 t) j _ (fun k => ?_) (fun k => ?_)
  · show V c main_arg0 (((cfg0.win 0).blk t).view.emb (ix2 (j 0) k)) = V c main_arg0 (ix2 ((((cfg0.win 2).blk t).view.emb j) 0) k)
    refine congrArg (V c main_arg0) ?_
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  · show V c main_arg4 (((cfg0.win 1).blk t).view.emb (ix2 k (j 1))) = V c main_arg4 (ix2 k ((((cfg0.win 2).blk t).view.emb j) 1))
    refine congrArg (V c main_arg4) ?_
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega

/-- An index of the result array is in point `t`'s block iff its row lies in rows `2000 t … 2000 t + 1999`. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- REGION 0: the result array ends holding the product of the two operand arrays as the region finds them: the 25
    row blocks tile it. -/
theorem region (c : Dev nD) : (dat0 V c).arrAt 2 cfg0.N = Spec.mm (V c main_arg0) (V c main_arg4) :=
  (dat0 V c).arrAt_eq_of_cover 2 _ (fun t _ => flushed V c t) fun i => by
    have hi0 : (i 0).val < 50000 := (i 0).isLt
    have hi1 : (i 1).val < 128 := (i 1).isLt
    have hN : cfg0.N = 25 := rfl
    let t : Fin cfg0.N := ⟨(i 0).val / 2000, by rw [hN]; omega⟩
    obtain ⟨e00, e01, e10, e11, e20, e21⟩ := idx t
    refine ⟨t, flush0_2 t, ?_⟩
    rw [mem_blk]
    intro a
    match a with
    | ⟨0, _⟩ => show win0_2.index t (0 : Fin 2) * 2000 ≤ (i 0).val ∧ (i 0).val < win0_2.index t (0 : Fin 2) * 2000 + 2000; rw [e20]; show (i 0).val / 2000 * 2000 ≤ (i 0).val ∧ (i 0).val < (i 0).val / 2000 * 2000 + 2000; omega
    | ⟨1, _⟩ => show win0_2.index t (1 : Fin 2) * 128 ≤ (i 1).val ∧ (i 1).val < win0_2.index t (1 : Fin 2) * 128 + 128; rw [e21]; omega

end Cert.KernelIdeal.Hand.R0

end
-- ==== Proof.Region1.lean ====
/-
  Region 1 of the kernel program (the first bias-and-rectifier call), as a value: whatever the TensorCore's buffers hold
  when the region is entered, its result array ends holding `relu (X + v)`, `X` the [50000, 128] operand array and `v`
  the one-row [1, 128] operand added to every row.  Each of the 25 grid points adds the row to a block of 2000 rows and
  rectifies it; the blocks tile the array.
-/
import proofs.«163416_j36309653520480_1_alg».proof.Proof.KernelIdealFrame
import proofs.«163416_j36309653520480_1_alg».proof.Proof.Spec
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R1

open Cert.KernelIdeal Cert.KernelIdeal.Gen Cert.KernelIdeal.GenP Cert.Spec

theorem hz : (![0, 0] : Fin 2 → Nat) = fun _ => 0 := funext fun a => by fin_cases a <;> rfl

/-- Rows of a biased, rectified matrix: if entry `j` of the block `xb` is entry `i` of `X` and the one-row operands agree in
    the column concerned, the results agree at those entries. -/
theorem rows {B : Nat} (X : Mat 50000 B) (v : Mat 1 B) (xb : Mat 2000 B) (vb : Mat 1 B)
    (j : (⟨2, ![2000, B]⟩ : Shape).Idx) (i : (⟨2, ![50000, B]⟩ : Shape).Idx)
    (hx : xb j = X i) (hv : vb (ix2 0 (j 1)) = v (ix2 0 (i 1))) :
    relu (biasRow xb vb) j = relu (biasRow X v) i := by
  rw [relu_apply, relu_apply, biasRow_apply, biasRow_apply, hx, hv]

variable (V : (c : Dev nD) → (b : Ref sig .tc) → Buf (Elt Ideal) ((c : Thread nD τ).loc b))

/-- The body's stored value: its one-row block added to every row of its 2000-row block, then the maximum with zero. -/
theorem pay (x0 : Vec Ideal S2000x128 .f32) (x1 : Vec Ideal S1x128 .f32) : k1_pay1 x0 x1 = relu (biasRow x0 x1) := by
  unfold k1_pay1
  simp only [shapeCast_self]
  funext i
  obtain ⟨p, q, rfl⟩ : ∃ (p : Fin 2000) (q : Fin 128), i = ix2 p q := ⟨i 0, i 1, eq_ix2 i⟩
  rw [maximumf_apply, addf_apply, broadcast_apply, broadcastTo_1b_ab_apply, relu_apply, biasRow_apply]
  rfl

/-- The index maps over the grid: point `t` takes row block `t` of the operand and of the result, and the whole one-row
    operand. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `relu (X + v)` of the two arrays as the region finds them. -/
theorem flushed (c : Dev nD) (t : Fin cfg1.N) :
    (dat1 V c).flushed 2 t = ((cfg1.win 2).blk t).view.read (Elt Ideal) (relu (biasRow (V c main_v13) (V c main_v14))) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  rw [pay]
  obtain ⟨e00, e01, e10, e11, e20, e21⟩ := idx t
  funext j
  show relu (biasRow (iblk1 V c 0 t) (iblk1 V c 1 t)) j = relu (biasRow (V c main_v13) (V c main_v14)) (((cfg1.win 2).blk t).view.emb j)
  refine rows (V c main_v13) (V c main_v14) (iblk1 V c 0 t) (iblk1 V c 1 t) j _ ?_ ?_
  · show V c main_v13 (((cfg1.win 0).blk t).view.emb j) = V c main_v13 (((cfg1.win 2).blk t).view.emb j)
    refine congrArg (V c main_v13) ?_
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  · show V c main_v14 (((cfg1.win 1).blk t).view.emb (ix2 0 (j 1))) = V c main_v14 (ix2 0 ((((cfg1.win 2).blk t).view.emb j) 1))
    refine congrArg (V c main_v14) ?_
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega

/-- An index of the result array is in point `t`'s block iff its row lies in rows `2000 t … 2000 t + 1999`. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v15).slice (win1_2.rect t)).set ↔ _
  rw [View.set_slice_whole, Rect.mem_set_unit]
  exact Iff.rfl

/-- REGION 1: the result array ends holding `relu (X + v)` of the two operand arrays as the region finds them: the 25 row
    blocks tile it. -/
theorem region (c : Dev nD) : (dat1 V c).arrAt 2 cfg1.N = relu (biasRow (V c main_v13) (V c main_v14)) :=
  (dat1 V c).arrAt_eq_of_cover 2 _ (fun t _ => flushed V c t) fun i => by
    have hi0 : (i 0).val < 50000 := (i 0).isLt
    have hi1 : (i 1).val < 128 := (i 1).isLt
    have hN : cfg1.N = 25 := rfl
    let t : Fin cfg1.N := ⟨(i 0).val / 2000, by rw [hN]; omega⟩
    obtain ⟨e00, e01, e10, e11, e20, e21⟩ := idx t
    refine ⟨t, flush1_2 t, ?_⟩
    rw [mem_blk]
    intro a
    match a with
    | ⟨0, _⟩ => show win1_2.index t (0 : Fin 2) * 2000 ≤ (i 0).val ∧ (i 0).val < win1_2.index t (0 : Fin 2) * 2000 + 2000; rw [e20]; show (i 0).val / 2000 * 2000 ≤ (i 0).val ∧ (i 0).val < (i 0).val / 2000 * 2000 + 2000; omega
    | ⟨1, _⟩ => show win1_2.index t (1 : Fin 2) * 128 ≤ (i 1).val ∧ (i 1).val < win1_2.index t (1 : Fin 2) * 128 + 128; rw [e21]; omega

end Cert.KernelIdeal.Hand.R1

end
-- ==== Proof.Region2.lean ====
/-
  Region 2 of the kernel program (the second matrix-product call), as a value: whatever the TensorCore's buffers hold when
  the region is entered, its result array ends holding the product `X · W` of its two operand arrays, `X` of 50000 rows.
  Each of the 25 grid points multiplies a block of 2000 rows of `X` by the whole of `W`: row `p` of block `t` of the product
  is row `2000 t + p` of `X · W`, a sum over the contracted coordinate, and the blocks tile the array.
-/
import proofs.«163416_j36309653520480_1_alg».proof.Proof.KernelIdealFrame
import proofs.«163416_j36309653520480_1_alg».proof.Proof.Spec
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R2

open Cert.KernelIdeal Cert.KernelIdeal.Gen Cert.KernelIdeal.GenP Cert.Spec

theorem hz : (![0, 0] : Fin 2 → Nat) = fun _ => 0 := funext fun a => by fin_cases a <;> rfl

variable (V : (c : Dev nD) → (b : Ref sig .tc) → Buf (Elt Ideal) ((c : Thread nD τ).loc b))

/-- The body's stored value: the product of its two loaded blocks (the narrowing of the operands is the identity on
    extended reals). -/
theorem pay (x0 : Vec Ideal S2000x128 .f32) (x1 : Vec Ideal S128x128 .f32) : k2_pay1 x0 x1 = Spec.mm x0 x1 := by
  unfold k2_pay1
  first | exact Spec.matmul_zero_eq_mm x0 x1 | (simp only [shapeCast_self]; exact Spec.matmul_zero_eq_mm x0 x1)

/-- The index maps over the grid: point `t` takes row block `t` of the left operand and of the result, and the whole right
    operand. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the region finds them. -/
theorem flushed (c : Dev nD) (t : Fin cfg2.N) :
    (dat2 V c).flushed 2 t = ((cfg2.win 2).blk t).view.read (Elt Ideal) (Spec.mm (V c main_v15) (V c main_arg6)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  rw [pay]
  obtain ⟨e00, e01, e10, e11, e20, e21⟩ := idx t
  funext j
  show Spec.mm (iblk2 V c 0 t) (iblk2 V c 1 t) j = Spec.mm (V c main_v15) (V c main_arg6) (((cfg2.win 2).blk t).view.emb j)
  refine mm_rows (V c main_v15) (V c main_arg6) (iblk2 V c 0 t) (iblk2 V c 1 t) j _ (fun k => ?_) (fun k => ?_)
  · show V c main_v15 (((cfg2.win 0).blk t).view.emb (ix2 (j 0) k)) = V c main_v15 (ix2 ((((cfg2.win 2).blk t).view.emb j) 0) k)
    refine congrArg (V c main_v15) ?_
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  · show V c main_arg6 (((cfg2.win 1).blk t).view.emb (ix2 k (j 1))) = V c main_arg6 (ix2 k ((((cfg2.win 2).blk t).view.emb j) 1))
    refine congrArg (V c main_arg6) ?_
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the result array is in point `t`'s block iff its row lies in rows `2000 t … 2000 t + 1999`. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v16).slice (win2_2.rect t)).set ↔ _
  rw [View.set_slice_whole, Rect.mem_set_unit]
  exact Iff.rfl

/-- REGION 2: the result array ends holding the product of the two operand arrays as the region finds them: the 25
    row blocks tile it. -/
theorem region (c : Dev nD) : (dat2 V c).arrAt 2 cfg2.N = Spec.mm (V c main_v15) (V c main_arg6) :=
  (dat2 V c).arrAt_eq_of_cover 2 _ (fun t _ => flushed V c t) fun i => by
    have hi0 : (i 0).val < 50000 := (i 0).isLt
    have hi1 : (i 1).val < 128 := (i 1).isLt
    have hN : cfg2.N = 25 := rfl
    let t : Fin cfg2.N := ⟨(i 0).val / 2000, by rw [hN]; omega⟩
    obtain ⟨e00, e01, e10, e11, e20, e21⟩ := idx t
    refine ⟨t, flush2_2 t, ?_⟩
    rw [mem_blk]
    intro a
    match a with
    | ⟨0, _⟩ => show win2_2.index t (0 : Fin 2) * 2000 ≤ (i 0).val ∧ (i 0).val < win2_2.index t (0 : Fin 2) * 2000 + 2000; rw [e20]; show (i 0).val / 2000 * 2000 ≤ (i 0).val ∧ (i 0).val < (i 0).val / 2000 * 2000 + 2000; omega
    | ⟨1, _⟩ => show win2_2.index t (1 : Fin 2) * 128 ≤ (i 1).val ∧ (i 1).val < win2_2.index t (1 : Fin 2) * 128 + 128; rw [e21]; omega

end Cert.KernelIdeal.Hand.R2

end
-- ==== Proof.Region3.lean ====
/-
  Region 3 of the kernel program (the second bias-and-rectifier call), as a value: whatever the TensorCore's buffers hold
  when the region is entered, its result array ends holding `relu (X + v)`, `X` the [50000, 128] operand array and `v`
  the one-row [1, 128] operand added to every row.  Each of the 25 grid points adds the row to a block of 2000 rows and
  rectifies it; the blocks tile the array.
-/
import proofs.«163416_j36309653520480_1_alg».proof.Proof.KernelIdealFrame
import proofs.«163416_j36309653520480_1_alg».proof.Proof.Spec
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R3

open Cert.KernelIdeal Cert.KernelIdeal.Gen Cert.KernelIdeal.GenP Cert.Spec

theorem hz : (![0, 0] : Fin 2 → Nat) = fun _ => 0 := funext fun a => by fin_cases a <;> rfl

/-- Rows of a biased, rectified matrix: if entry `j` of the block `xb` is entry `i` of `X` and the one-row operands agree in
    the column concerned, the results agree at those entries. -/
theorem rows {B : Nat} (X : Mat 50000 B) (v : Mat 1 B) (xb : Mat 2000 B) (vb : Mat 1 B)
    (j : (⟨2, ![2000, B]⟩ : Shape).Idx) (i : (⟨2, ![50000, B]⟩ : Shape).Idx)
    (hx : xb j = X i) (hv : vb (ix2 0 (j 1)) = v (ix2 0 (i 1))) :
    relu (biasRow xb vb) j = relu (biasRow X v) i := by
  rw [relu_apply, relu_apply, biasRow_apply, biasRow_apply, hx, hv]

variable (V : (c : Dev nD) → (b : Ref sig .tc) → Buf (Elt Ideal) ((c : Thread nD τ).loc b))

/-- The body's stored value: its one-row block added to every row of its 2000-row block, then the maximum with zero. -/
theorem pay (x0 : Vec Ideal S2000x128 .f32) (x1 : Vec Ideal S1x128 .f32) : k3_pay1 x0 x1 = relu (biasRow x0 x1) := by
  unfold k3_pay1
  simp only [shapeCast_self]
  funext i
  obtain ⟨p, q, rfl⟩ : ∃ (p : Fin 2000) (q : Fin 128), i = ix2 p q := ⟨i 0, i 1, eq_ix2 i⟩
  rw [maximumf_apply, addf_apply, broadcast_apply, broadcastTo_1b_ab_apply, relu_apply, biasRow_apply]
  rfl

/-- The index maps over the grid: point `t` takes row block `t` of the operand and of the result, and the whole one-row
    operand. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `relu (X + v)` of the two arrays as the region finds them. -/
theorem flushed (c : Dev nD) (t : Fin cfg3.N) :
    (dat3 V c).flushed 2 t = ((cfg3.win 2).blk t).view.read (Elt Ideal) (relu (biasRow (V c main_v29) (V c main_v30))) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  rw [pay]
  obtain ⟨e00, e01, e10, e11, e20, e21⟩ := idx t
  funext j
  show relu (biasRow (iblk3 V c 0 t) (iblk3 V c 1 t)) j = relu (biasRow (V c main_v29) (V c main_v30)) (((cfg3.win 2).blk t).view.emb j)
  refine rows (V c main_v29) (V c main_v30) (iblk3 V c 0 t) (iblk3 V c 1 t) j _ ?_ ?_
  · show V c main_v29 (((cfg3.win 0).blk t).view.emb j) = V c main_v29 (((cfg3.win 2).blk t).view.emb j)
    refine congrArg (V c main_v29) ?_
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 128 + 1 * (j 1).val = win3_2.index t (1 : Fin 2) * 128 + 1 * (j 1).val; omega
  · show V c main_v30 (((cfg3.win 1).blk t).view.emb (ix2 0 (j 1))) = V c main_v30 (ix2 0 ((((cfg3.win 2).blk t).view.emb j) 1))
    refine congrArg (V c main_v30) ?_
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega

/-- An index of the result array is in point `t`'s block iff its row lies in rows `2000 t … 2000 t + 1999`. -/
theorem mem_blk (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v31).slice (win3_2.rect t)).set ↔ _
  rw [View.set_slice_whole, Rect.mem_set_unit]
  exact Iff.rfl

/-- REGION 3: the result array ends holding `relu (X + v)` of the two operand arrays as the region finds them: the 25 row
    blocks tile it. -/
theorem region (c : Dev nD) : (dat3 V c).arrAt 2 cfg3.N = relu (biasRow (V c main_v29) (V c main_v30)) :=
  (dat3 V c).arrAt_eq_of_cover 2 _ (fun t _ => flushed V c t) fun i => by
    have hi0 : (i 0).val < 50000 := (i 0).isLt
    have hi1 : (i 1).val < 128 := (i 1).isLt
    have hN : cfg3.N = 25 := rfl
    let t : Fin cfg3.N := ⟨(i 0).val / 2000, by rw [hN]; omega⟩
    obtain ⟨e00, e01, e10, e11, e20, e21⟩ := idx t
    refine ⟨t, flush3_2 t, ?_⟩
    rw [mem_blk]
    intro a
    match a with
    | ⟨0, _⟩ => show win3_2.index t (0 : Fin 2) * 2000 ≤ (i 0).val ∧ (i 0).val < win3_2.index t (0 : Fin 2) * 2000 + 2000; rw [e20]; show (i 0).val / 2000 * 2000 ≤ (i 0).val ∧ (i 0).val < (i 0).val / 2000 * 2000 + 2000; omega
    | ⟨1, _⟩ => show win3_2.index t (1 : Fin 2) * 128 ≤ (i 1).val ∧ (i 1).val < win3_2.index t (1 : Fin 2) * 128 + 128; rw [e21]; omega

end Cert.KernelIdeal.Hand.R3

end
-- ==== Proof.Region4.lean ====
/-
  Region 4 of the kernel program (the third matrix-product call), as a value: whatever the TensorCore's buffers hold when
  the region is entered, its result array ends holding the product `X · W` of its two operand arrays, `X` of 50000 rows.
  Each of the 25 grid points multiplies a block of 2000 rows of `X` by the whole of `W`: row `p` of block `t` of the product
  is row `2000 t + p` of `X · W`, a sum over the contracted coordinate, and the blocks tile the array.
-/
import proofs.«163416_j36309653520480_1_alg».proof.Proof.KernelIdealFrame
import proofs.«163416_j36309653520480_1_alg».proof.Proof.Spec
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R4

open Cert.KernelIdeal Cert.KernelIdeal.Gen Cert.KernelIdeal.GenP Cert.Spec

theorem hz : (![0, 0] : Fin 2 → Nat) = fun _ => 0 := funext fun a => by fin_cases a <;> rfl

variable (V : (c : Dev nD) → (b : Ref sig .tc) → Buf (Elt Ideal) ((c : Thread nD τ).loc b))

/-- The body's stored value: the product of its two loaded blocks (the narrowing of the operands is the identity on
    extended reals). -/
theorem pay (x0 : Vec Ideal S2000x128 .f32) (x1 : Vec Ideal S128x64 .f32) : k4_pay1 x0 x1 = Spec.mm x0 x1 := by
  unfold k4_pay1
  first | exact Spec.matmul_zero_eq_mm x0 x1 | (simp only [shapeCast_self]; exact Spec.matmul_zero_eq_mm x0 x1)

/-- The index maps over the grid: point `t` takes row block `t` of the left operand and of the result, and the whole right
    operand. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the product of the two arrays as the region finds them. -/
theorem flushed (c : Dev nD) (t : Fin cfg4.N) :
    (dat4 V c).flushed 2 t = ((cfg4.win 2).blk t).view.read (Elt Ideal) (Spec.mm (V c main_v31) (V c main_arg8)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x64) hz]
  rw [pay]
  obtain ⟨e00, e01, e10, e11, e20, e21⟩ := idx t
  funext j
  show Spec.mm (iblk4 V c 0 t) (iblk4 V c 1 t) j = Spec.mm (V c main_v31) (V c main_arg8) (((cfg4.win 2).blk t).view.emb j)
  refine mm_rows (V c main_v31) (V c main_arg8) (iblk4 V c 0 t) (iblk4 V c 1 t) j _ (fun k => ?_) (fun k => ?_)
  · show V c main_v31 (((cfg4.win 0).blk t).view.emb (ix2 (j 0) k)) = V c main_v31 (ix2 ((((cfg4.win 2).blk t).view.emb j) 0) k)
    refine congrArg (V c main_v31) ?_
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * k.val = k.val; omega
  · show V c main_arg8 (((cfg4.win 1).blk t).view.emb (ix2 k (j 1))) = V c main_arg8 (ix2 k ((((cfg4.win 2).blk t).view.emb j) 1))
    refine congrArg (V c main_arg8) ?_
    funext a; apply Fin.ext
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega

/-- An index of the result array is in point `t`'s block iff its row lies in rows `2000 t … 2000 t + 1999`. -/
theorem mem_blk (t : Fin cfg4.N) (i : S50000x64.Idx) :
    i ∈ ((cfg4.win 2).blk t).view.set ↔ ∀ a : Fin 2, win4_2.index t a * S2000x64.size a ≤ (i a).val ∧ (i a).val < win4_2.index t a * S2000x64.size a + S2000x64.size a := by
  show i ∈ ((View.whole main_v32).slice (win4_2.rect t)).set ↔ _
  rw [View.set_slice_whole, Rect.mem_set_unit]
  exact Iff.rfl

/-- REGION 4: the result array ends holding the product of the two operand arrays as the region finds them: the 25
    row blocks tile it. -/
theorem region (c : Dev nD) : (dat4 V c).arrAt 2 cfg4.N = Spec.mm (V c main_v31) (V c main_arg8) :=
  (dat4 V c).arrAt_eq_of_cover 2 _ (fun t _ => flushed V c t) fun i => by
    have hi0 : (i 0).val < 50000 := (i 0).isLt
    have hi1 : (i 1).val < 64 := (i 1).isLt
    have hN : cfg4.N = 25 := rfl
    let t : Fin cfg4.N := ⟨(i 0).val / 2000, by rw [hN]; omega⟩
    obtain ⟨e00, e01, e10, e11, e20, e21⟩ := idx t
    refine ⟨t, flush4_2 t, ?_⟩
    rw [mem_blk]
    intro a
    match a with
    | ⟨0, _⟩ => show win4_2.index t (0 : Fin 2) * 2000 ≤ (i 0).val ∧ (i 0).val < win4_2.index t (0 : Fin 2) * 2000 + 2000; rw [e20]; show (i 0).val / 2000 * 2000 ≤ (i 0).val ∧ (i 0).val < (i 0).val / 2000 * 2000 + 2000; omega
    | ⟨1, _⟩ => show win4_2.index t (1 : Fin 2) * 64 ≤ (i 1).val ∧ (i 1).val < win4_2.index t (1 : Fin 2) * 64 + 64; rw [e21]; omega

end Cert.KernelIdeal.Hand.R4

end
-- ==== Proof.Region5.lean ====
/-
  Region 5 of the kernel program (the bias call), as a value: whatever the TensorCore's buffers hold
  when the region is entered, its result array ends holding `X + v`, `X` the [50000, 64] operand array and `v`
  the one-row [1, 64] operand added to every row.  Each of the 25 grid points adds the row to a block of 2000 rows; the blocks tile the array.
-/
import proofs.«163416_j36309653520480_1_alg».proof.Proof.KernelIdealFrame
import proofs.«163416_j36309653520480_1_alg».proof.Proof.Spec
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R5

open Cert.KernelIdeal Cert.KernelIdeal.Gen Cert.KernelIdeal.GenP Cert.Spec

theorem hz : (![0, 0] : Fin 2 → Nat) = fun _ => 0 := funext fun a => by fin_cases a <;> rfl

/-- Rows of a biased matrix: if entry `j` of the block `xb` is entry `i` of `X` and the one-row operands agree in
    the column concerned, the results agree at those entries. -/
theorem rows {B : Nat} (X : Mat 50000 B) (v : Mat 1 B) (xb : Mat 2000 B) (vb : Mat 1 B)
    (j : (⟨2, ![2000, B]⟩ : Shape).Idx) (i : (⟨2, ![50000, B]⟩ : Shape).Idx)
    (hx : xb j = X i) (hv : vb (ix2 0 (j 1)) = v (ix2 0 (i 1))) :
    (biasRow xb vb) j = (biasRow X v) i := by
  rw [biasRow_apply, biasRow_apply, hx, hv]

variable (V : (c : Dev nD) → (b : Ref sig .tc) → Buf (Elt Ideal) ((c : Thread nD τ).loc b))

/-- The body's stored value: its one-row block added to every row of its 2000-row block. -/
theorem pay (x0 : Vec Ideal S2000x64 .f32) (x1 : Vec Ideal S1x64 .f32) : k5_pay1 x0 x1 = (biasRow x0 x1) := by
  unfold k5_pay1
  simp only [shapeCast_self]
  funext i
  obtain ⟨p, q, rfl⟩ : ∃ (p : Fin 2000) (q : Fin 64), i = ix2 p q := ⟨i 0, i 1, eq_ix2 i⟩
  rw [addf_apply, broadcastTo_1b_ab_apply, biasRow_apply]

/-- The index maps over the grid: point `t` takes row block `t` of the operand and of the result, and the whole one-row
    operand. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of `X + v` of the two arrays as the region finds them. -/
theorem flushed (c : Dev nD) (t : Fin cfg5.N) :
    (dat5 V c).flushed 2 t = ((cfg5.win 2).blk t).view.read (Elt Ideal) ((biasRow (V c main_v45) (V c main_v46))) := by
  show (cfg5.win 2).cut (grid5.coords t) ((dat5 V c).after 2 t) = _
  rw [after5_2]
  unfold out5_2
  rw [View.canon_unit_zero hz]
  simp only [View.ld_unit_zero (S := S2000x64) hz, View.ld_unit_zero (S := S1x64) hz]
  rw [pay]
  obtain ⟨e00, e01, e10, e11, e20, e21⟩ := idx t
  funext j
  show (biasRow (iblk5 V c 0 t) (iblk5 V c 1 t)) j = (biasRow (V c main_v45) (V c main_v46)) (((cfg5.win 2).blk t).view.emb j)
  refine rows (V c main_v45) (V c main_v46) (iblk5 V c 0 t) (iblk5 V c 1 t) j _ ?_ ?_
  · show V c main_v45 (((cfg5.win 0).blk t).view.emb j) = V c main_v45 (((cfg5.win 2).blk t).view.emb j)
    refine congrArg (V c main_v45) ?_
    funext a; apply Fin.ext
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 64 + 1 * (j 1).val = win5_2.index t (1 : Fin 2) * 64 + 1 * (j 1).val; omega
  · show V c main_v46 (((cfg5.win 1).blk t).view.emb (ix2 0 (j 1))) = V c main_v46 (ix2 0 ((((cfg5.win 2).blk t).view.emb j) 1))
    refine congrArg (V c main_v46) ?_
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega

/-- An index of the result array is in point `t`'s block iff its row lies in rows `2000 t … 2000 t + 1999`. -/
theorem mem_blk (t : Fin cfg5.N) (i : S50000x64.Idx) :
    i ∈ ((cfg5.win 2).blk t).view.set ↔ ∀ a : Fin 2, win5_2.index t a * S2000x64.size a ≤ (i a).val ∧ (i a).val < win5_2.index t a * S2000x64.size a + S2000x64.size a := by
  show i ∈ ((View.whole main_v47).slice (win5_2.rect t)).set ↔ _
  rw [View.set_slice_whole, Rect.mem_set_unit]
  exact Iff.rfl

/-- REGION 5: the result array ends holding `X + v` of the two operand arrays as the region finds them: the 25 row
    blocks tile it. -/
theorem region (c : Dev nD) : (dat5 V c).arrAt 2 cfg5.N = (biasRow (V c main_v45) (V c main_v46)) :=
  (dat5 V c).arrAt_eq_of_cover 2 _ (fun t _ => flushed V c t) fun i => by
    have hi0 : (i 0).val < 50000 := (i 0).isLt
    have hi1 : (i 1).val < 64 := (i 1).isLt
    have hN : cfg5.N = 25 := rfl
    let t : Fin cfg5.N := ⟨(i 0).val / 2000, by rw [hN]; omega⟩
    obtain ⟨e00, e01, e10, e11, e20, e21⟩ := idx t
    refine ⟨t, flush5_2 t, ?_⟩
    rw [mem_blk]
    intro a
    match a with
    | ⟨0, _⟩ => show win5_2.index t (0 : Fin 2) * 2000 ≤ (i 0).val ∧ (i 0).val < win5_2.index t (0 : Fin 2) * 2000 + 2000; rw [e20]; show (i 0).val / 2000 * 2000 ≤ (i 0).val ∧ (i 0).val < (i 0).val / 2000 * 2000 + 2000; omega
    | ⟨1, _⟩ => show win5_2.index t (1 : Fin 2) * 64 ≤ (i 1).val ∧ (i 1).val < win5_2.index t (1 : Fin 2) * 64 + 64; rw [e21]; omega

end Cert.KernelIdeal.Hand.R5

end
-- ==== Proof.Region6.lean ====
/-
  Region 6 of the kernel program (the first fused product-bias-rectifier call), as a value: whatever the TensorCore's
  buffers hold when the region is entered, its result array ends holding `relu (X · W + v)`, `X` the [50000, 64] operand
  array, `W` the [64, 128] one and `v` the one-row [1, 128] operand added to every row.  Each of the 25 grid points does so
  for a block of 2000 rows of `X`; the blocks tile the array.
-/
import proofs.«163416_j36309653520480_1_alg».proof.Proof.KernelIdealFrame
import proofs.«163416_j36309653520480_1_alg».proof.Proof.Spec
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R6

open Cert.KernelIdeal Cert.KernelIdeal.Gen Cert.KernelIdeal.GenP Cert.Spec

theorem hz : (![0, 0] : Fin 2 → Nat) = fun _ => 0 := funext fun a => by fin_cases a <;> rfl

/-- Rows of a biased, rectified product: if the block `xb` holds rows of `X`, `wb` the columns of `W` concerned and the one-row
    operands agree in the column concerned, the results agree at those entries. -/
theorem rows {K B : Nat} (X : Mat 50000 K) (W : Mat K B) (v : Mat 1 B) (xb : Mat 2000 K) (wb : Mat K B) (vb : Mat 1 B)
    (j : (⟨2, ![2000, B]⟩ : Shape).Idx) (i : (⟨2, ![50000, B]⟩ : Shape).Idx)
    (hx : ∀ k : Fin K, xb (ix2 (j 0) k) = X (ix2 (i 0) k)) (hw : ∀ k : Fin K, wb (ix2 k (j 1)) = W (ix2 k (i 1)))
    (hv : vb (ix2 0 (j 1)) = v (ix2 0 (i 1))) :
    relu (biasRow (mm xb wb) vb) j = relu (biasRow (mm X W) v) i := by
  rw [relu_apply, relu_apply, biasRow_apply, biasRow_apply, mm_rows X W xb wb j i hx hw, hv]

variable (V : (c : Dev nD) → (b : Ref sig .tc) → Buf (Elt Ideal) ((c : Thread nD τ).loc b))

/-- The body's stored value: the product of its two loaded blocks (the narrowing of the operands is the identity on
    extended reals), its one-row block added to every row, then the maximum with zero. -/
theorem pay (x0 : Vec Ideal S2000x64 .f32) (x1 : Vec Ideal S64x128 .f32) (x2 : Vec Ideal S1x128 .f32) :
    k6_pay1 x0 x1 x2 = relu (biasRow (mm x0 x1) x2) := by
  have hm : matmul dot_S2000x64_S64x128_S2000x128_1_0_0_1_n_n none (truncf .bf16 x0 bitsLt_bf16_f32) (truncf .bf16 x1 bitsLt_bf16_f32)
      (constant S2000x128 .f32 0x00000000#32) = mm x0 x1 := Spec.matmul_zero_eq_mm x0 x1
  unfold k6_pay1
  simp only [shapeCast_self]
  rw [hm]
  funext i
  obtain ⟨p, q, rfl⟩ : ∃ (p : Fin 2000) (q : Fin 128), i = ix2 p q := ⟨i 0, i 1, eq_ix2 i⟩
  rw [maximumf_apply, addf_apply, broadcast_apply, broadcastTo_1b_ab_apply, relu_apply, biasRow_apply]
  rfl

/-- The index maps over the grid: point `t` takes row block `t` of the left operand and of the result, and the whole of
    the two other operands. -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of `relu (X · W + v)` of the three arrays as the region finds them. -/
theorem flushed (c : Dev nD) (t : Fin cfg6.N) :
    (dat6 V c).flushed 3 t = ((cfg6.win 3).blk t).view.read (Elt Ideal) (relu (biasRow (mm (V c main_v47) (V c main_arg10)) (V c main_v48))) := by
  show (cfg6.win 3).cut (grid6.coords t) ((dat6 V c).after 3 t) = _
  rw [after6_3]
  unfold out6_3
  rw [View.canon_unit_zero hz]
  simp only [View.ld_unit_zero (S := S2000x64) hz, View.ld_unit_zero (S := S64x128) hz, View.ld_unit_zero (S := S1x128) hz]
  rw [pay]
  obtain ⟨e00, e01, e10, e11, e20, e21, e30, e31⟩ := idx t
  funext j
  show relu (biasRow (mm (iblk6 V c 0 t) (iblk6 V c 1 t)) (iblk6 V c 2 t)) j
    = relu (biasRow (mm (V c main_v47) (V c main_arg10)) (V c main_v48)) (((cfg6.win 3).blk t).view.emb j)
  refine rows (V c main_v47) (V c main_arg10) (V c main_v48) (iblk6 V c 0 t) (iblk6 V c 1 t) (iblk6 V c 2 t) j _ (fun k => ?_) (fun k => ?_) ?_
  · show V c main_v47 (((cfg6.win 0).blk t).view.emb (ix2 (j 0) k)) = V c main_v47 (ix2 ((((cfg6.win 3).blk t).view.emb j) 0) k)
    refine congrArg (V c main_v47) ?_
    funext a; apply Fin.ext
    match a with
    | ⟨0, _⟩ => show win6_0.index t (0 : Fin 2) * 2000 + 1 * (j 0).val = win6_3.index t (0 : Fin 2) * 2000 + 1 * (j 0).val; omega
    | ⟨1, _⟩ => show win6_0.index t (1 : Fin 2) * 64 + 1 * k.val = k.val; omega
  · show V c main_arg10 (((cfg6.win 1).blk t).view.emb (ix2 k (j 1))) = V c main_arg10 (ix2 k ((((cfg6.win 3).blk t).view.emb j) 1))
    refine congrArg (V c main_arg10) ?_
    funext a; apply Fin.ext
    match a with
    | ⟨0, _⟩ => show win6_1.index t (0 : Fin 2) * 64 + 1 * k.val = k.val; omega
    | ⟨1, _⟩ => show win6_1.index t (1 : Fin 2) * 128 + 1 * (j 1).val = win6_3.index t (1 : Fin 2) * 128 + 1 * (j 1).val; omega
  · show V c main_v48 (((cfg6.win 2).blk t).view.emb (ix2 0 (j 1))) = V c main_v48 (ix2 0 ((((cfg6.win 3).blk t).view.emb j) 1))
    refine congrArg (V c main_v48) ?_
    funext a; apply Fin.ext
    match a with
    | ⟨0, _⟩ => show win6_2.index t (0 : Fin 2) * 1 + 1 * 0 = 0; omega
    | ⟨1, _⟩ => show win6_2.index t (1 : Fin 2) * 128 + 1 * (j 1).val = win6_3.index t (1 : Fin 2) * 128 + 1 * (j 1).val; omega

/-- An index of the result array is in point `t`'s block iff its row lies in rows `2000 t … 2000 t + 1999`. -/
theorem mem_blk (t : Fin cfg6.N) (i : S50000x128.Idx) :
    i ∈ ((cfg6.win 3).blk t).view.set ↔ ∀ a : Fin 2, win6_3.index t a * S2000x128.size a ≤ (i a).val ∧ (i a).val < win6_3.index t a * S2000x128.size a + S2000x128.size a := by
  show i ∈ ((View.whole main_v49).slice (win6_3.rect t)).set ↔ _
  rw [View.set_slice_whole, Rect.mem_set_unit]
  exact Iff.rfl

/-- REGION 6: the result array ends holding `relu (X · W + v)` of the three operand arrays as the region finds them: the
    25 row blocks tile it. -/
theorem region (c : Dev nD) : (dat6 V c).arrAt 3 cfg6.N = relu (biasRow (mm (V c main_v47) (V c main_arg10)) (V c main_v48)) :=
  (dat6 V c).arrAt_eq_of_cover 3 _ (fun t _ => flushed V c t) fun i => by
    have hi0 : (i 0).val < 50000 := (i 0).isLt
    have hi1 : (i 1).val < 128 := (i 1).isLt
    have hN : cfg6.N = 25 := rfl
    let t : Fin cfg6.N := ⟨(i 0).val / 2000, by rw [hN]; omega⟩
    obtain ⟨e00, e01, e10, e11, e20, e21, e30, e31⟩ := idx t
    refine ⟨t, flush6_3 t, ?_⟩
    rw [mem_blk]
    intro a
    match a with
    | ⟨0, _⟩ => show win6_3.index t (0 : Fin 2) * 2000 ≤ (i 0).val ∧ (i 0).val < win6_3.index t (0 : Fin 2) * 2000 + 2000; rw [e30]; show (i 0).val / 2000 * 2000 ≤ (i 0).val ∧ (i 0).val < (i 0).val / 2000 * 2000 + 2000; omega
    | ⟨1, _⟩ => show win6_3.index t (1 : Fin 2) * 128 ≤ (i 1).val ∧ (i 1).val < win6_3.index t (1 : Fin 2) * 128 + 128; rw [e31]; omega

end Cert.KernelIdeal.Hand.R6

end
-- ==== Proof.Region7.lean ====
/-
  Region 7 of the kernel program (the second fused call, a product and a bias), as a value: whatever the TensorCore's
  buffers hold when the region is entered, its result array ends holding `X · W + v`, `X` the [50000, 128] operand
  array, `W` the [128, 128] one and `v` the one-row [1, 128] operand added to every row.  Each of the 25 grid points does so
  for a block of 2000 rows of `X`; the blocks tile the array.
-/
import proofs.«163416_j36309653520480_1_alg».proof.Proof.KernelIdealFrame
import proofs.«163416_j36309653520480_1_alg».proof.Proof.Spec
import Idealize.ShloMosaic.Lib.Pipeline.Value
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R7

open Cert.KernelIdeal Cert.KernelIdeal.Gen Cert.KernelIdeal.GenP Cert.Spec

theorem hz : (![0, 0] : Fin 2 → Nat) = fun _ => 0 := funext fun a => by fin_cases a <;> rfl

/-- Rows of a biased product: if the block `xb` holds rows of `X`, `wb` the columns of `W` concerned and the one-row
    operands agree in the column concerned, the results agree at those entries. -/
theorem rows {K B : Nat} (X : Mat 50000 K) (W : Mat K B) (v : Mat 1 B) (xb : Mat 2000 K) (wb : Mat K B) (vb : Mat 1 B)
    (j : (⟨2, ![2000, B]⟩ : Shape).Idx) (i : (⟨2, ![50000, B]⟩ : Shape).Idx)
    (hx : ∀ k : Fin K, xb (ix2 (j 0) k) = X (ix2 (i 0) k)) (hw : ∀ k : Fin K, wb (ix2 k (j 1)) = W (ix2 k (i 1)))
    (hv : vb (ix2 0 (j 1)) = v (ix2 0 (i 1))) :
    (biasRow (mm xb wb) vb) j = (biasRow (mm X W) v) i := by
  rw [biasRow_apply, biasRow_apply, mm_rows X W xb wb j i hx hw, hv]

variable (V : (c : Dev nD) → (b : Ref sig .tc) → Buf (Elt Ideal) ((c : Thread nD τ).loc b))

/-- The body's stored value: the product of its two loaded blocks (the narrowing of the operands is the identity on
    extended reals), its one-row block added to every row. -/
theorem pay (x0 : Vec Ideal S2000x128 .f32) (x1 : Vec Ideal S128x128 .f32) (x2 : Vec Ideal S1x128 .f32) :
    k7_pay1 x0 x1 x2 = (biasRow (mm x0 x1) x2) := by
  have hm : matmul dot_S2000x128_S128x128_S2000x128_1_0_0_1_n_n none (truncf .bf16 x0 bitsLt_bf16_f32) (truncf .bf16 x1 bitsLt_bf16_f32)
      (constant S2000x128 .f32 0x00000000#32) = mm x0 x1 := Spec.matmul_zero_eq_mm x0 x1
  unfold k7_pay1
  simp only [shapeCast_self]
  rw [hm]
  funext i
  obtain ⟨p, q, rfl⟩ : ∃ (p : Fin 2000) (q : Fin 128), i = ix2 p q := ⟨i 0, i 1, eq_ix2 i⟩
  rw [addf_apply, broadcastTo_1b_ab_apply, biasRow_apply]

/-- The index maps over the grid: point `t` takes row block `t` of the left operand and of the result, and the whole of
    the two other operands. -/
theorem idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point `t` writes back is block `t` of `X · W + v` of the three arrays as the region finds them. -/
theorem flushed (c : Dev nD) (t : Fin cfg7.N) :
    (dat7 V c).flushed 3 t = ((cfg7.win 3).blk t).view.read (Elt Ideal) ((biasRow (mm (V c main_v49) (V c main_arg12)) (V c main_v50))) := by
  show (cfg7.win 3).cut (grid7.coords t) ((dat7 V c).after 3 t) = _
  rw [after7_3]
  unfold out7_3
  rw [View.canon_unit_zero hz]
  simp only [View.ld_unit_zero (S := S2000x128) hz, View.ld_unit_zero (S := S128x128) hz, View.ld_unit_zero (S := S1x128) hz]
  rw [pay]
  obtain ⟨e00, e01, e10, e11, e20, e21, e30, e31⟩ := idx t
  funext j
  show (biasRow (mm (iblk7 V c 0 t) (iblk7 V c 1 t)) (iblk7 V c 2 t)) j
    = (biasRow (mm (V c main_v49) (V c main_arg12)) (V c main_v50)) (((cfg7.win 3).blk t).view.emb j)
  refine rows (V c main_v49) (V c main_arg12) (V c main_v50) (iblk7 V c 0 t) (iblk7 V c 1 t) (iblk7 V c 2 t) j _ (fun k => ?_) (fun k => ?_) ?_
  · show V c main_v49 (((cfg7.win 0).blk t).view.emb (ix2 (j 0) k)) = V c main_v49 (ix2 ((((cfg7.win 3).blk t).view.emb j) 0) k)
    refine congrArg (V c main_v49) ?_
    funext a; apply Fin.ext
    match a with
    | ⟨0, _⟩ => show win7_0.index t (0 : Fin 2) * 2000 + 1 * (j 0).val = win7_3.index t (0 : Fin 2) * 2000 + 1 * (j 0).val; omega
    | ⟨1, _⟩ => show win7_0.index t (1 : Fin 2) * 128 + 1 * k.val = k.val; omega
  · show V c main_arg12 (((cfg7.win 1).blk t).view.emb (ix2 k (j 1))) = V c main_arg12 (ix2 k ((((cfg7.win 3).blk t).view.emb j) 1))
    refine congrArg (V c main_arg12) ?_
    funext a; apply Fin.ext
    match a with
    | ⟨0, _⟩ => show win7_1.index t (0 : Fin 2) * 128 + 1 * k.val = k.val; omega
    | ⟨1, _⟩ => show win7_1.index t (1 : Fin 2) * 128 + 1 * (j 1).val = win7_3.index t (1 : Fin 2) * 128 + 1 * (j 1).val; omega
  · show V c main_v50 (((cfg7.win 2).blk t).view.emb (ix2 0 (j 1))) = V c main_v50 (ix2 0 ((((cfg7.win 3).blk t).view.emb j) 1))
    refine congrArg (V c main_v50) ?_
    funext a; apply Fin.ext
    match a with
    | ⟨0, _⟩ => show win7_2.index t (0 : Fin 2) * 1 + 1 * 0 = 0; omega
    | ⟨1, _⟩ => show win7_2.index t (1 : Fin 2) * 128 + 1 * (j 1).val = win7_3.index t (1 : Fin 2) * 128 + 1 * (j 1).val; omega

/-- An index of the result array is in point `t`'s block iff its row lies in rows `2000 t … 2000 t + 1999`. -/
theorem mem_blk (t : Fin cfg7.N) (i : S50000x128.Idx) :
    i ∈ ((cfg7.win 3).blk t).view.set ↔ ∀ a : Fin 2, win7_3.index t a * S2000x128.size a ≤ (i a).val ∧ (i a).val < win7_3.index t a * S2000x128.size a + S2000x128.size a := by
  show i ∈ ((View.whole main_v51).slice (win7_3.rect t)).set ↔ _
  rw [View.set_slice_whole, Rect.mem_set_unit]
  exact Iff.rfl

/-- REGION 7: the result array ends holding `X · W + v` of the three operand arrays as the region finds them: the
    25 row blocks tile it. -/
theorem region (c : Dev nD) : (dat7 V c).arrAt 3 cfg7.N = (biasRow (mm (V c main_v49) (V c main_arg12)) (V c main_v50)) :=
  (dat7 V c).arrAt_eq_of_cover 3 _ (fun t _ => flushed V c t) fun i => by
    have hi0 : (i 0).val < 50000 := (i 0).isLt
    have hi1 : (i 1).val < 128 := (i 1).isLt
    have hN : cfg7.N = 25 := rfl
    let t : Fin cfg7.N := ⟨(i 0).val / 2000, by rw [hN]; omega⟩
    obtain ⟨e00, e01, e10, e11, e20, e21, e30, e31⟩ := idx t
    refine ⟨t, flush7_3 t, ?_⟩
    rw [mem_blk]
    intro a
    match a with
    | ⟨0, _⟩ => show win7_3.index t (0 : Fin 2) * 2000 ≤ (i 0).val ∧ (i 0).val < win7_3.index t (0 : Fin 2) * 2000 + 2000; rw [e30]; show (i 0).val / 2000 * 2000 ≤ (i 0).val ∧ (i 0).val < (i 0).val / 2000 * 2000 + 2000; omega
    | ⟨1, _⟩ => show win7_3.index t (1 : Fin 2) * 128 ≤ (i 1).val ∧ (i 1).val < win7_3.index t (1 : Fin 2) * 128 + 128; rw [e31]; omega

end Cert.KernelIdeal.Hand.R7

end
-- ==== Proof.KernelValue.lean ====
/-
  The kernel program's run, read as the mathematical specification.

  @main is eight TensorCore regions among stretches of host operations.  The frame's run gives the TensorCore's buffer
  contents at every boundary as a fold from the launch memory.  Here the fold is read, boundary by boundary: an argument
  array is as launched at every boundary (no region and no host operation writes one); each region's result array is the
  region's function of its operand arrays as it finds them (the eight region modules); each host stretch is the sparse
  aggregation of the product before it — a gather of rows, a multiplication by the edge weights, a scatter-add into a zero
  array, kept as one function and never opened — and the layer's bias vector made a one-row matrix.  Chained, the two
  result arrays are the specification's projection head and embedding of the arguments.
-/
import proofs.«163416_j36309653520480_1_alg».proof.Proof.KernelIdealRun
import proofs.«163416_j36309653520480_1_alg».proof.Proof.Spec
import proofs.«163416_j36309653520480_1_alg».proof.Proof.Region0
import proofs.«163416_j36309653520480_1_alg».proof.Proof.Region1
import proofs.«163416_j36309653520480_1_alg».proof.Proof.Region2
import proofs.«163416_j36309653520480_1_alg».proof.Proof.Region3
import proofs.«163416_j36309653520480_1_alg».proof.Proof.Region4
import proofs.«163416_j36309653520480_1_alg».proof.Proof.Region5
import proofs.«163416_j36309653520480_1_alg».proof.Proof.Region6
import proofs.«163416_j36309653520480_1_alg».proof.Proof.Region7
import Idealize.ShloMosaic.Lib.StableHlo.Run
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.GenP Cert.Spec

/-! ## The sparse aggregation, as the host stretches compute it; what no step writes -/

section Generic

variable {F : FTy → Type} [FloatOps F]

/-- The sparse aggregation at 128 features: row `col e` of `T` (a negative `col e` counted from the end), times the weight
    `w e`, added into row `row e` of a zero array, over all edges `e`. -/
def sp128 (row col : IVec S800000 32) (w : FVec F S800000 .f32) (T : FVec F S50000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 row)
    (mulf (broadcastInDim S800000x128 ![0, 1] bcast_S800000x1_S800000x128_0_1 (broadcastInDim S800000x1 ![0] bcast_S800000_S800000x1_0 w))
      (Host.gather gather_S50000x128_S800000x1_S800000x128_1_0_n_n_0_1_1128 T
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- The sparse aggregation at 64 features. -/
def sp64 (row col : IVec S800000 32) (w : FVec F S800000 .f32) (T : FVec F S50000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 row)
    (mulf (broadcastInDim S800000x64 ![0, 1] bcast_S800000x1_S800000x64_0_1 (broadcastInDim S800000x1 ![0] bcast_S800000_S800000x1_0 w))
      (Host.gather gather_S50000x64_S800000x1_S800000x64_1_0_n_n_0_1_164 T
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- @main's fourteen argument arrays. -/
abbrev argRefs : List (Ref sig .tc) := [main_arg0, main_arg1, main_arg2, main_arg3, main_arg4, main_arg5, main_arg6, main_arg7, main_arg8, main_arg9, main_arg10, main_arg11, main_arg12, main_arg13]

theorem args_ne_v0 : ∀ b ∈ argRefs, b ≠ main_v0 := by decide
theorem args_ne_v15 : ∀ b ∈ argRefs, b ≠ main_v15 := by decide
theorem args_ne_v16 : ∀ b ∈ argRefs, b ≠ main_v16 := by decide
theorem args_ne_v31 : ∀ b ∈ argRefs, b ≠ main_v31 := by decide
theorem args_ne_v32 : ∀ b ∈ argRefs, b ≠ main_v32 := by decide
theorem args_ne_v47 : ∀ b ∈ argRefs, b ≠ main_v47 := by decide
theorem args_ne_v49 : ∀ b ∈ argRefs, b ≠ main_v49 := by decide
theorem args_ne_v51 : ∀ b ∈ argRefs, b ≠ main_v51 := by decide

/-- No operation of host stretch 1 writes an argument of @main. -/
theorem host1_keep (W : Valuation τ sig (Elt F)) (b : Ref sig .tc) (hb : b ∈ argRefs) :
    StableHlo.after (hostOps1 (F := F)) W (Proc.devRef .tc b) = W (Proc.devRef .tc b) := by
  simp only [argRefs, List.mem_cons, List.not_mem_nil, or_false] at hb
  rcases hb with rfl | rfl | rfl | rfl | rfl | rfl | rfl | rfl | rfl | rfl | rfl | rfl | rfl | rfl
  all_goals exact StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of host stretch 3 writes an argument of @main. -/
theorem host3_keep (W : Valuation τ sig (Elt F)) (b : Ref sig .tc) (hb : b ∈ argRefs) :
    StableHlo.after (hostOps3 (F := F)) W (Proc.devRef .tc b) = W (Proc.devRef .tc b) := by
  simp only [argRefs, List.mem_cons, List.not_mem_nil, or_false] at hb
  rcases hb with rfl | rfl | rfl | rfl | rfl | rfl | rfl | rfl | rfl | rfl | rfl | rfl | rfl | rfl
  all_goals exact StableHlo.after_of_forall_not_mem _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of host stretch 5 writes an argument of @main. -/
theorem host5_keep (W : Valuation τ sig (Elt F)) (b : Ref sig .tc) (hb : b ∈ argRefs) :
    StableHlo.after (hostOps5 (F := F)) W (Proc.devRef .tc b) = W (Proc.devRef .tc b) := by
  simp only [argRefs, List.mem_cons, List.not_mem_nil, or_false] at hb
  rcases hb with rfl | rfl | rfl | rfl | rfl | rfl | rfl | rfl | rfl | rfl | rfl | rfl | rfl | rfl
  all_goals exact StableHlo.after_of_forall_not_mem _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of host stretch 6 writes an argument of @main. -/
theorem host6_keep (W : Valuation τ sig (Elt F)) (b : Ref sig .tc) (hb : b ∈ argRefs) :
    StableHlo.after (hostOps6 (F := F)) W (Proc.devRef .tc b) = W (Proc.devRef .tc b) := by
  simp only [argRefs, List.mem_cons, List.not_mem_nil, or_false] at hb
  rcases hb with rfl | rfl | rfl | rfl | rfl | rfl | rfl | rfl | rfl | rfl | rfl | rfl | rfl | rfl
  all_goals exact StableHlo.after_of_forall_not_mem _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of host stretch 7 writes an argument of @main. -/
theorem host7_keep (W : Valuation τ sig (Elt F)) (b : Ref sig .tc) (hb : b ∈ argRefs) :
    StableHlo.after (hostOps7 (F := F)) W (Proc.devRef .tc b) = W (Proc.devRef .tc b) := by
  simp only [argRefs, List.mem_cons, List.not_mem_nil, or_false] at hb
  rcases hb with rfl | rfl | rfl | rfl | rfl | rfl | rfl | rfl | rfl | rfl | rfl | rfl | rfl | rfl
  all_goals exact StableHlo.after_of_forall_not_mem _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

variable (m : (ℓ : Loc nD τ sig) → Buf (Elt F) ℓ) (ρ : Dev nD → PrngReg)

/-- Region 0 leaves every buffer but its result array as it found it: an operand array is written back as fetched,
    any other buffer is not one of the region's arrays. -/
theorem keep0 (c : Dev nD) (b : Ref sig .tc) (hb : b ≠ main_v0) :
    W1 m ρ c (Proc.devRef .tc b) = W0 m ρ c (Proc.devRef .tc b) := by
  by_cases h0 : Pipeline.arrRef spec0 0 = b
  · subst h0; exact (W1_arr m ρ c 0).trans (((dat0 (V0 m ρ) c).arrAt_in 0 rfl _).trans (A_eq0 (V0 m ρ) c 0))
  by_cases h1 : Pipeline.arrRef spec0 1 = b
  · subst h1; exact (W1_arr m ρ c 1).trans (((dat0 (V0 m ρ) c).arrAt_in 1 rfl _).trans (A_eq0 (V0 m ρ) c 1))
  exact W1_of_ne m ρ c b fun w => by
    match w with
    | ⟨0, _⟩ => exact h0
    | ⟨1, _⟩ => exact h1
    | ⟨2, _⟩ => exact fun e => hb e.symm

/-- Region 1 leaves every buffer but its result array as it found it: an operand array is written back as fetched,
    any other buffer is not one of the region's arrays. -/
theorem keep1 (c : Dev nD) (b : Ref sig .tc) (hb : b ≠ main_v15) :
    W3 m ρ c (Proc.devRef .tc b) = W2 m ρ c (Proc.devRef .tc b) := by
  by_cases h0 : Pipeline.arrRef spec1 0 = b
  · subst h0; exact (W3_arr m ρ c 0).trans (((dat1 (V2 m ρ) c).arrAt_in 0 rfl _).trans (A_eq1 (V2 m ρ) c 0))
  by_cases h1 : Pipeline.arrRef spec1 1 = b
  · subst h1; exact (W3_arr m ρ c 1).trans (((dat1 (V2 m ρ) c).arrAt_in 1 rfl _).trans (A_eq1 (V2 m ρ) c 1))
  exact W3_of_ne m ρ c b fun w => by
    match w with
    | ⟨0, _⟩ => exact h0
    | ⟨1, _⟩ => exact h1
    | ⟨2, _⟩ => exact fun e => hb e.symm

/-- Region 2 leaves every buffer but its result array as it found it: an operand array is written back as fetched,
    any other buffer is not one of the region's arrays. -/
theorem keep2 (c : Dev nD) (b : Ref sig .tc) (hb : b ≠ main_v16) :
    W4 m ρ c (Proc.devRef .tc b) = W3 m ρ c (Proc.devRef .tc b) := by
  by_cases h0 : Pipeline.arrRef spec2 0 = b
  · subst h0; exact (W4_arr m ρ c 0).trans (((dat2 (V3 m ρ) c).arrAt_in 0 rfl _).trans (A_eq2 (V3 m ρ) c 0))
  by_cases h1 : Pipeline.arrRef spec2 1 = b
  · subst h1; exact (W4_arr m ρ c 1).trans (((dat2 (V3 m ρ) c).arrAt_in 1 rfl _).trans (A_eq2 (V3 m ρ) c 1))
  exact W4_of_ne m ρ c b fun w => by
    match w with
    | ⟨0, _⟩ => exact h0
    | ⟨1, _⟩ => exact h1
    | ⟨2, _⟩ => exact fun e => hb e.symm

/-- Region 3 leaves every buffer but its result array as it found it: an operand array is written back as fetched,
    any other buffer is not one of the region's arrays. -/
theorem keep3 (c : Dev nD) (b : Ref sig .tc) (hb : b ≠ main_v31) :
    W6 m ρ c (Proc.devRef .tc b) = W5 m ρ c (Proc.devRef .tc b) := by
  by_cases h0 : Pipeline.arrRef spec3 0 = b
  · subst h0; exact (W6_arr m ρ c 0).trans (((dat3 (V5 m ρ) c).arrAt_in 0 rfl _).trans (A_eq3 (V5 m ρ) c 0))
  by_cases h1 : Pipeline.arrRef spec3 1 = b
  · subst h1; exact (W6_arr m ρ c 1).trans (((dat3 (V5 m ρ) c).arrAt_in 1 rfl _).trans (A_eq3 (V5 m ρ) c 1))
  exact W6_of_ne m ρ c b fun w => by
    match w with
    | ⟨0, _⟩ => exact h0
    | ⟨1, _⟩ => exact h1
    | ⟨2, _⟩ => exact fun e => hb e.symm

/-- Region 4 leaves every buffer but its result array as it found it: an operand array is written back as fetched,
    any other buffer is not one of the region's arrays. -/
theorem keep4 (c : Dev nD) (b : Ref sig .tc) (hb : b ≠ main_v32) :
    W7 m ρ c (Proc.devRef .tc b) = W6 m ρ c (Proc.devRef .tc b) := by
  by_cases h0 : Pipeline.arrRef spec4 0 = b
  · subst h0; exact (W7_arr m ρ c 0).trans (((dat4 (V6 m ρ) c).arrAt_in 0 rfl _).trans (A_eq4 (V6 m ρ) c 0))
  by_cases h1 : Pipeline.arrRef spec4 1 = b
  · subst h1; exact (W7_arr m ρ c 1).trans (((dat4 (V6 m ρ) c).arrAt_in 1 rfl _).trans (A_eq4 (V6 m ρ) c 1))
  exact W7_of_ne m ρ c b fun w => by
    match w with
    | ⟨0, _⟩ => exact h0
    | ⟨1, _⟩ => exact h1
    | ⟨2, _⟩ => exact fun e => hb e.symm

/-- Region 5 leaves every buffer but its result array as it found it: an operand array is written back as fetched,
    any other buffer is not one of the region's arrays. -/
theorem keep5 (c : Dev nD) (b : Ref sig .tc) (hb : b ≠ main_v47) :
    W9 m ρ c (Proc.devRef .tc b) = W8 m ρ c (Proc.devRef .tc b) := by
  by_cases h0 : Pipeline.arrRef spec5 0 = b
  · subst h0; exact (W9_arr m ρ c 0).trans (((dat5 (V8 m ρ) c).arrAt_in 0 rfl _).trans (A_eq5 (V8 m ρ) c 0))
  by_cases h1 : Pipeline.arrRef spec5 1 = b
  · subst h1; exact (W9_arr m ρ c 1).trans (((dat5 (V8 m ρ) c).arrAt_in 1 rfl _).trans (A_eq5 (V8 m ρ) c 1))
  exact W9_of_ne m ρ c b fun w => by
    match w with
    | ⟨0, _⟩ => exact h0
    | ⟨1, _⟩ => exact h1
    | ⟨2, _⟩ => exact fun e => hb e.symm

/-- Region 6 leaves every buffer but its result array as it found it: an operand array is written back as fetched,
    any other buffer is not one of the region's arrays. -/
theorem keep6 (c : Dev nD) (b : Ref sig .tc) (hb : b ≠ main_v49) :
    W11 m ρ c (Proc.devRef .tc b) = W10 m ρ c (Proc.devRef .tc b) := by
  by_cases h0 : Pipeline.arrRef spec6 0 = b
  · subst h0; exact (W11_arr m ρ c 0).trans (((dat6 (V10 m ρ) c).arrAt_in 0 rfl _).trans (A_eq6 (V10 m ρ) c 0))
  by_cases h1 : Pipeline.arrRef spec6 1 = b
  · subst h1; exact (W11_arr m ρ c 1).trans (((dat6 (V10 m ρ) c).arrAt_in 1 rfl _).trans (A_eq6 (V10 m ρ) c 1))
  by_cases h2 : Pipeline.arrRef spec6 2 = b
  · subst h2; exact (W11_arr m ρ c 2).trans (((dat6 (V10 m ρ) c).arrAt_in 2 rfl _).trans (A_eq6 (V10 m ρ) c 2))
  exact W11_of_ne m ρ c b fun w => by
    match w with
    | ⟨0, _⟩ => exact h0
    | ⟨1, _⟩ => exact h1
    | ⟨2, _⟩ => exact h2
    | ⟨3, _⟩ => exact fun e => hb e.symm

/-- Region 7 leaves every buffer but its result array as it found it: an operand array is written back as fetched,
    any other buffer is not one of the region's arrays. -/
theorem keep7 (c : Dev nD) (b : Ref sig .tc) (hb : b ≠ main_v51) :
    W13 m ρ c (Proc.devRef .tc b) = W12 m ρ c (Proc.devRef .tc b) := by
  by_cases h0 : Pipeline.arrRef spec7 0 = b
  · subst h0; exact (W13_arr m ρ c 0).trans (((dat7 (V12 m ρ) c).arrAt_in 0 rfl _).trans (A_eq7 (V12 m ρ) c 0))
  by_cases h1 : Pipeline.arrRef spec7 1 = b
  · subst h1; exact (W13_arr m ρ c 1).trans (((dat7 (V12 m ρ) c).arrAt_in 1 rfl _).trans (A_eq7 (V12 m ρ) c 1))
  by_cases h2 : Pipeline.arrRef spec7 2 = b
  · subst h2; exact (W13_arr m ρ c 2).trans (((dat7 (V12 m ρ) c).arrAt_in 2 rfl _).trans (A_eq7 (V12 m ρ) c 2))
  exact W13_of_ne m ρ c b fun w => by
    match w with
    | ⟨0, _⟩ => exact h0
    | ⟨1, _⟩ => exact h1
    | ⟨2, _⟩ => exact h2
    | ⟨3, _⟩ => exact fun e => hb e.symm

/-! ## Every argument array is as launched at every boundary -/

theorem at1 (c : Dev nD) (b : Ref sig .tc) (hb : b ∈ argRefs) : W1 m ρ c (Proc.devRef .tc b) = m ((c : Thread nD τ).loc b) :=
  (keep0 m ρ c b (args_ne_v0 b hb)).trans rfl
theorem at2 (c : Dev nD) (b : Ref sig .tc) (hb : b ∈ argRefs) : W2 m ρ c (Proc.devRef .tc b) = m ((c : Thread nD τ).loc b) :=
  (host1_keep (W1 m ρ c) b hb).trans (at1 m ρ c b hb)
theorem at3 (c : Dev nD) (b : Ref sig .tc) (hb : b ∈ argRefs) : W3 m ρ c (Proc.devRef .tc b) = m ((c : Thread nD τ).loc b) :=
  (keep1 m ρ c b (args_ne_v15 b hb)).trans (at2 m ρ c b hb)
theorem at4 (c : Dev nD) (b : Ref sig .tc) (hb : b ∈ argRefs) : W4 m ρ c (Proc.devRef .tc b) = m ((c : Thread nD τ).loc b) :=
  (keep2 m ρ c b (args_ne_v16 b hb)).trans (at3 m ρ c b hb)
theorem at5 (c : Dev nD) (b : Ref sig .tc) (hb : b ∈ argRefs) : W5 m ρ c (Proc.devRef .tc b) = m ((c : Thread nD τ).loc b) :=
  (host3_keep (W4 m ρ c) b hb).trans (at4 m ρ c b hb)
theorem at6 (c : Dev nD) (b : Ref sig .tc) (hb : b ∈ argRefs) : W6 m ρ c (Proc.devRef .tc b) = m ((c : Thread nD τ).loc b) :=
  (keep3 m ρ c b (args_ne_v31 b hb)).trans (at5 m ρ c b hb)
theorem at7 (c : Dev nD) (b : Ref sig .tc) (hb : b ∈ argRefs) : W7 m ρ c (Proc.devRef .tc b) = m ((c : Thread nD τ).loc b) :=
  (keep4 m ρ c b (args_ne_v32 b hb)).trans (at6 m ρ c b hb)
theorem at8 (c : Dev nD) (b : Ref sig .tc) (hb : b ∈ argRefs) : W8 m ρ c (Proc.devRef .tc b) = m ((c : Thread nD τ).loc b) :=
  (host5_keep (W7 m ρ c) b hb).trans (at7 m ρ c b hb)
theorem at9 (c : Dev nD) (b : Ref sig .tc) (hb : b ∈ argRefs) : W9 m ρ c (Proc.devRef .tc b) = m ((c : Thread nD τ).loc b) :=
  (keep5 m ρ c b (args_ne_v47 b hb)).trans (at8 m ρ c b hb)
theorem at10 (c : Dev nD) (b : Ref sig .tc) (hb : b ∈ argRefs) : W10 m ρ c (Proc.devRef .tc b) = m ((c : Thread nD τ).loc b) :=
  (host6_keep (W9 m ρ c) b hb).trans (at9 m ρ c b hb)
theorem at11 (c : Dev nD) (b : Ref sig .tc) (hb : b ∈ argRefs) : W11 m ρ c (Proc.devRef .tc b) = m ((c : Thread nD τ).loc b) :=
  (keep6 m ρ c b (args_ne_v49 b hb)).trans (at10 m ρ c b hb)
theorem at12 (c : Dev nD) (b : Ref sig .tc) (hb : b ∈ argRefs) : W12 m ρ c (Proc.devRef .tc b) = m ((c : Thread nD τ).loc b) :=
  (host7_keep (W11 m ρ c) b hb).trans (at11 m ρ c b hb)

end Generic

/-! ## The boundaries' contents, at the extended reals -/

/-- A vector made a one-row matrix and added to every row adds the vector to every row. -/
theorem biasRow_reshape {a B : Nat} (X : Mat a B) (b : Row B) (h : (⟨1, ![B]⟩ : Shape).ShapeCasts ⟨2, ![1, B]⟩) :
    biasRow X (fun i => shapeCast ⟨2, ![1, B]⟩ b h i) = bias X b := by
  funext i
  rw [biasRow_apply, bias_apply]
  refine congrArg (X i + ·) ?_
  refine (shapeCast_addUnit_apply ![B] b h (ix2 0 (i 1))).trans (congrArg b (funext fun a => ?_))
  match a with
  | ⟨0, _⟩ => rfl

section Values

variable (m : (ℓ : Loc nD τ sig) → Buf (Elt Ideal) ℓ) (ρ : Dev nD → PrngReg)

/-- The first layer's product `x · W1`. -/
def t1 (c : Dev nD) : Mat 50000 128 := mm (m ((c : Thread nD τ).loc main_arg0)) (m ((c : Thread nD τ).loc main_arg4))
/-- The first layer: `relu (A · (x · W1) + b1)`. -/
def h1 (c : Dev nD) : Mat 50000 128 := relu (bias (sp128 (m ((c : Thread nD τ).loc main_arg1)) (m ((c : Thread nD τ).loc main_arg2)) (m ((c : Thread nD τ).loc main_arg3)) (t1 m c)) (m ((c : Thread nD τ).loc main_arg5)))
/-- The second layer's product. -/
def t2 (c : Dev nD) : Mat 50000 128 := mm (h1 m c) (m ((c : Thread nD τ).loc main_arg6))
/-- The second layer. -/
def h2 (c : Dev nD) : Mat 50000 128 := relu (bias (sp128 (m ((c : Thread nD τ).loc main_arg1)) (m ((c : Thread nD τ).loc main_arg2)) (m ((c : Thread nD τ).loc main_arg3)) (t2 m c)) (m ((c : Thread nD τ).loc main_arg7)))
/-- The third layer's product. -/
def t3 (c : Dev nD) : Mat 50000 64 := mm (h2 m c) (m ((c : Thread nD τ).loc main_arg8))
/-- The embedding: the third layer, without a rectifier. -/
def embOf (c : Dev nD) : Mat 50000 64 := bias (sp64 (m ((c : Thread nD τ).loc main_arg1)) (m ((c : Thread nD τ).loc main_arg2)) (m ((c : Thread nD τ).loc main_arg3)) (t3 m c)) (m ((c : Thread nD τ).loc main_arg9))
/-- The projection head's hidden layer. -/
def z1 (c : Dev nD) : Mat 50000 128 := relu (bias (mm (embOf m c) (m ((c : Thread nD τ).loc main_arg10))) (m ((c : Thread nD τ).loc main_arg11)))
/-- The projection head's result. -/
def zOf (c : Dev nD) : Mat 50000 128 := bias (mm (z1 m c) (m ((c : Thread nD τ).loc main_arg12))) (m ((c : Thread nD τ).loc main_arg13))

/-- Region 0 leaves `x · W1`. -/
theorem f_v0 (c : Dev nD) : W1 m ρ c (Proc.devRef .tc main_v0) = t1 m c :=
  (W1_arr m ρ c 2).trans (R0.region (V0 m ρ) c)

/-- Host stretch 1 leaves the sparse aggregation of `x · W1` … -/
theorem f_v13 (c : Dev nD) : W2 m ρ c (Proc.devRef .tc main_v13) = sp128 (m ((c : Thread nD τ).loc main_arg1)) (m ((c : Thread nD τ).loc main_arg2)) (m ((c : Thread nD τ).loc main_arg3)) (t1 m c) := by
  show StableHlo.after hostOps1 (W1 m ρ c) (Proc.devRef .tc main_v13) = _
  after_results
  rw [at1 m ρ c main_arg1 (by decide), at1 m ρ c main_arg2 (by decide), at1 m ρ c main_arg3 (by decide), f_v0 m ρ c]
  rfl
/-- … and the first bias as a one-row matrix. -/
theorem f_v14 (c : Dev nD) : W2 m ρ c (Proc.devRef .tc main_v14) = (fun i => shapeCast S1x128 (m ((c : Thread nD τ).loc main_arg5)) shapeCasts_S128_S1x128 i : Mat 1 128) := by
  show StableHlo.after hostOps1 (W1 m ρ c) (Proc.devRef .tc main_v14) = _
  after_results
  rw [at1 m ρ c main_arg5 (by decide)]
  rfl

/-- Region 1 leaves the first layer. -/
theorem f_v15 (c : Dev nD) : W3 m ρ c (Proc.devRef .tc main_v15) = h1 m c := by
  refine (W3_arr m ρ c 2).trans ((R1.region (V2 m ρ) c).trans ?_)
  show relu (biasRow (W2 m ρ c (Proc.devRef .tc main_v13)) (W2 m ρ c (Proc.devRef .tc main_v14))) = _
  rw [f_v13, f_v14, biasRow_reshape]
  rfl

/-- Region 2 leaves the second layer's product. -/
theorem f_v16 (c : Dev nD) : W4 m ρ c (Proc.devRef .tc main_v16) = t2 m c := by
  refine (W4_arr m ρ c 2).trans ((R2.region (V3 m ρ) c).trans ?_)
  show mm (W3 m ρ c (Proc.devRef .tc main_v15)) (W3 m ρ c (Proc.devRef .tc main_arg6)) = _
  rw [f_v15, at3 m ρ c main_arg6 (by decide)]
  rfl

theorem f_v29 (c : Dev nD) : W5 m ρ c (Proc.devRef .tc main_v29) = sp128 (m ((c : Thread nD τ).loc main_arg1)) (m ((c : Thread nD τ).loc main_arg2)) (m ((c : Thread nD τ).loc main_arg3)) (t2 m c) := by
  show StableHlo.after hostOps3 (W4 m ρ c) (Proc.devRef .tc main_v29) = _
  after_results
  rw [at4 m ρ c main_arg1 (by decide), at4 m ρ c main_arg2 (by decide), at4 m ρ c main_arg3 (by decide), f_v16 m ρ c]
  rfl
theorem f_v30 (c : Dev nD) : W5 m ρ c (Proc.devRef .tc main_v30) = (fun i => shapeCast S1x128 (m ((c : Thread nD τ).loc main_arg7)) shapeCasts_S128_S1x128 i : Mat 1 128) := by
  show StableHlo.after hostOps3 (W4 m ρ c) (Proc.devRef .tc main_v30) = _
  after_results
  rw [at4 m ρ c main_arg7 (by decide)]
  rfl

/-- Region 3 leaves the second layer. -/
theorem f_v31 (c : Dev nD) : W6 m ρ c (Proc.devRef .tc main_v31) = h2 m c := by
  refine (W6_arr m ρ c 2).trans ((R3.region (V5 m ρ) c).trans ?_)
  show relu (biasRow (W5 m ρ c (Proc.devRef .tc main_v29)) (W5 m ρ c (Proc.devRef .tc main_v30))) = _
  rw [f_v29, f_v30, biasRow_reshape]
  rfl

/-- Region 4 leaves the third layer's product. -/
theorem f_v32 (c : Dev nD) : W7 m ρ c (Proc.devRef .tc main_v32) = t3 m c := by
  refine (W7_arr m ρ c 2).trans ((R4.region (V6 m ρ) c).trans ?_)
  show mm (W6 m ρ c (Proc.devRef .tc main_v31)) (W6 m ρ c (Proc.devRef .tc main_arg8)) = _
  rw [f_v31, at6 m ρ c main_arg8 (by decide)]
  rfl

theorem f_v45 (c : Dev nD) : W8 m ρ c (Proc.devRef .tc main_v45) = sp64 (m ((c : Thread nD τ).loc main_arg1)) (m ((c : Thread nD τ).loc main_arg2)) (m ((c : Thread nD τ).loc main_arg3)) (t3 m c) := by
  show StableHlo.after hostOps5 (W7 m ρ c) (Proc.devRef .tc main_v45) = _
  after_results
  rw [at7 m ρ c main_arg1 (by decide), at7 m ρ c main_arg2 (by decide), at7 m ρ c main_arg3 (by decide), f_v32 m ρ c]
  rfl
theorem f_v46 (c : Dev nD) : W8 m ρ c (Proc.devRef .tc main_v46) = (fun i => shapeCast S1x64 (m ((c : Thread nD τ).loc main_arg9)) shapeCasts_S64_S1x64 i : Mat 1 64) := by
  show StableHlo.after hostOps5 (W7 m ρ c) (Proc.devRef .tc main_v46) = _
  after_results
  rw [at7 m ρ c main_arg9 (by decide)]
  rfl

/-- Region 5 leaves the embedding. -/
theorem f_v47 (c : Dev nD) : W9 m ρ c (Proc.devRef .tc main_v47) = embOf m c := by
  refine (W9_arr m ρ c 2).trans ((R5.region (V8 m ρ) c).trans ?_)
  show biasRow (W8 m ρ c (Proc.devRef .tc main_v45)) (W8 m ρ c (Proc.devRef .tc main_v46)) = _
  rw [f_v45, f_v46, biasRow_reshape]
  rfl

/-- A host stretch that is one reshape writes its result only. -/
theorem host6_keep' (W : Valuation τ sig (Elt Ideal)) (b : Ref sig .tc) (hb : b ≠ main_v48) :
    StableHlo.after (hostOps6 (F := Ideal)) W (Proc.devRef .tc b) = W (Proc.devRef .tc b) :=
  StableHlo.after_of_forall_not_mem _ _ (List.forall_iff_forall_mem.mp (by
    simp only [hostOps6, List.Forall, StableHlo.reshape_writes, Finset.mem_singleton]
    exact StableHlo.devRef_ne_of_ne hb))
theorem host7_keep' (W : Valuation τ sig (Elt Ideal)) (b : Ref sig .tc) (hb : b ≠ main_v50) :
    StableHlo.after (hostOps7 (F := Ideal)) W (Proc.devRef .tc b) = W (Proc.devRef .tc b) :=
  StableHlo.after_of_forall_not_mem _ _ (List.forall_iff_forall_mem.mp (by
    simp only [hostOps7, List.Forall, StableHlo.reshape_writes, Finset.mem_singleton]
    exact StableHlo.devRef_ne_of_ne hb))

theorem f_v48 (c : Dev nD) : W10 m ρ c (Proc.devRef .tc main_v48) = (fun i => shapeCast S1x128 (m ((c : Thread nD τ).loc main_arg11)) shapeCasts_S128_S1x128 i : Mat 1 128) := by
  show StableHlo.after hostOps6 (W9 m ρ c) (Proc.devRef .tc main_v48) = _
  after_results
  rw [at9 m ρ c main_arg11 (by decide)]
  rfl
theorem f_v47_10 (c : Dev nD) : W10 m ρ c (Proc.devRef .tc main_v47) = embOf m c :=
  (host6_keep' (W9 m ρ c) main_v47 (by decide)).trans (f_v47 m ρ c)

/-- Region 6 leaves the head's hidden layer. -/
theorem f_v49 (c : Dev nD) : W11 m ρ c (Proc.devRef .tc main_v49) = z1 m c := by
  refine (W11_arr m ρ c 3).trans ((R6.region (V10 m ρ) c).trans ?_)
  show relu (biasRow (mm (W10 m ρ c (Proc.devRef .tc main_v47)) (W10 m ρ c (Proc.devRef .tc main_arg10))) (W10 m ρ c (Proc.devRef .tc main_v48))) = _
  rw [f_v47_10, at10 m ρ c main_arg10 (by decide), f_v48, biasRow_reshape]
  rfl

theorem f_v50 (c : Dev nD) : W12 m ρ c (Proc.devRef .tc main_v50) = (fun i => shapeCast S1x128 (m ((c : Thread nD τ).loc main_arg13)) shapeCasts_S128_S1x128 i : Mat 1 128) := by
  show StableHlo.after hostOps7 (W11 m ρ c) (Proc.devRef .tc main_v50) = _
  after_results
  rw [at11 m ρ c main_arg13 (by decide)]
  rfl
theorem f_v49_12 (c : Dev nD) : W12 m ρ c (Proc.devRef .tc main_v49) = z1 m c :=
  (host7_keep' (W11 m ρ c) main_v49 (by decide)).trans (f_v49 m ρ c)

/-- Region 7 leaves the head's result. -/
theorem f_v51 (c : Dev nD) : W13 m ρ c (Proc.devRef .tc main_v51) = zOf m c := by
  refine (W13_arr m ρ c 3).trans ((R7.region (V12 m ρ) c).trans ?_)
  show biasRow (mm (W12 m ρ c (Proc.devRef .tc main_v49)) (W12 m ρ c (Proc.devRef .tc main_arg12))) (W12 m ρ c (Proc.devRef .tc main_v50)) = _
  rw [f_v49_12, at12 m ρ c main_arg12 (by decide), f_v50, biasRow_reshape]
  rfl

/-- The embedding's array, written by region 5, is still the embedding at the return: regions 6 and 7 and the two
    reshapes between them do not write it. -/
theorem f_v47_13 (c : Dev nD) : W13 m ρ c (Proc.devRef .tc main_v47) = embOf m c :=
  (keep7 m ρ c main_v47 (by decide)).trans ((host7_keep' (W11 m ρ c) main_v47 (by decide)).trans
    ((keep6 m ρ c main_v47 (by decide)).trans (f_v47_10 m ρ c)))

/-- The embedding and the head's result are the specification's. -/
theorem embOf_eq (c : Dev nD) : embOf m c = Spec.emb (sp128 (m ((c : Thread nD τ).loc main_arg1)) (m ((c : Thread nD τ).loc main_arg2)) (m ((c : Thread nD τ).loc main_arg3)))
    (sp64 (m ((c : Thread nD τ).loc main_arg1)) (m ((c : Thread nD τ).loc main_arg2)) (m ((c : Thread nD τ).loc main_arg3)))
    (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := rfl
theorem zOf_eq (c : Dev nD) : zOf m c = Spec.proj (embOf m c) (m ((c : Thread nD τ).loc main_arg10)) (m ((c : Thread nD τ).loc main_arg11)) (m ((c : Thread nD τ).loc main_arg12)) (m ((c : Thread nD τ).loc main_arg13)) := rfl

/-- At the extended reals, every weakly fair execution of the kernel program ends with its first result the
    specification's projection head on the embedding of the arguments, its second result that embedding, and the arguments
    unchanged. -/
theorem run_spec : θ_run (defs (F := Ideal)) (onTc (τ := τ) (main (F := Ideal))) ⟨m, fun _ => 0, ρ⟩ fun r => ∀ c : Dev nD,
      r.2.mem ((c.tc : Thread nD τ).loc main_v51) = Spec.proj (embOf m c) (m ((c : Thread nD τ).loc main_arg10)) (m ((c : Thread nD τ).loc main_arg11)) (m ((c : Thread nD τ).loc main_arg12)) (m ((c : Thread nD τ).loc main_arg13))
      ∧ r.2.mem ((c.tc : Thread nD τ).loc main_v47) = embOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans ((f_v51 m ρ c).trans (zOf_eq m c)), (h c).2.1.trans (f_v47_13 m ρ c), (h c).2.2⟩)
    (run_valued (F := Ideal) m ρ)

end Values

end Cert.KernelIdeal.Hand

end
-- ==== Proof.RefValue.lean ====
/-
  The reference program's run, read as the mathematical specification.

  The reference computes, on the host, a graph encoder followed by a projection head.  Its run ends with each
  result at one long composition of host operations of the arguments.  Here that composition is recognised, stage
  by stage, as the specification's: a product of matrices is the sum over the contracted coordinate, the two nested
  broadcasts of a vector followed by an addition add the vector to every row, the maximum with a broadcast zero is the
  rectifier.  The sparse aggregation (a gather of rows, a multiplication by the edge weights, a scatter-add into a zero
  array) is not opened: it is kept as one function of the node-feature matrix, the same on both sides.
-/
import proofs.«163416_j36309653520480_1_alg».proof.Proof.Gen.ReferenceIdeal.Run
import proofs.«163416_j36309653520480_1_alg».proof.Proof.Spec
import Idealize.ShloMosaic.Lib.Pipeline.Value
import Idealize.ShloMosaic.Lib.ValueIdx
import Idealize.ShloMosaic.Lib.ValueLayout

noncomputable section

namespace Cert.ReferenceIdeal.RefValue

open Cert.ReferenceIdeal Cert.ReferenceIdeal.Gen Cert.ReferenceIdeal.Value Cert.Spec Idealize.ShloMosaic Idealize.ShloMosaic.TcCoe
  Idealize.SL.Sem Idealize.ShloMosaic.ValueIdx

/-! ## The stages of the reference's term, for any float values -/

section Generic

variable {F : FTy → Type} [FloatOps F]

/-- The sparse aggregation at 128 features: row `col e` of `T` (a negative `col e` counted from the end), times the
    weight `w e`, added into row `row e` of a zero array, over all edges `e`. -/
def sp128 (row col : IVec S800000 32) (w : FVec F S800000 .f32) (T : FVec F S50000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 row)
    (mulf (broadcastInDim S800000x128 ![0, 1] bcast_S800000x1_S800000x128_0_1 (broadcastInDim S800000x1 ![0] bcast_S800000_S800000x1_0 w))
      (Host.gather gather_S50000x128_S800000x1_S800000x128_1_0_n_n_0_1_1128 T
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- The sparse aggregation at 64 features. -/
def sp64 (row col : IVec S800000 32) (w : FVec F S800000 .f32) (T : FVec F S50000x64 .f32) : FVec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 row)
    (mulf (broadcastInDim S800000x64 ![0, 1] bcast_S800000x1_S800000x64_0_1 (broadcastInDim S800000x1 ![0] bcast_S800000_S800000x1_0 w))
      (Host.gather gather_S50000x64_S800000x1_S800000x64_1_0_n_n_0_1_164 T
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col))))

/-- A vector of 128 entries made a one-row matrix, that row repeated 50000 times, added. -/
def addRow128 (X : FVec F S50000x128 .f32) (b : FVec F S128 .f32) : FVec F S50000x128 .f32 :=
  addf X (broadcastInDim S50000x128 ![0, 1] bcast_S1x128_S50000x128_0_1 (broadcastInDim S1x128 ![1] bcast_S128_S1x128_1 b))

/-- The same at 64 entries. -/
def addRow64 (X : FVec F S50000x64 .f32) (b : FVec F S64 .f32) : FVec F S50000x64 .f32 :=
  addf X (broadcastInDim S50000x64 ![0, 1] bcast_S1x64_S50000x64_0_1 (broadcastInDim S1x64 ![1] bcast_S64_S1x64_1 b))

/-- The maximum with a zero broadcast to every entry. -/
def maxZero (X : FVec F S50000x128 .f32) : FVec F S50000x128 .f32 :=
  maximumf X (broadcastInDim S50000x128 ![] bcast_S_S50000x128 (constant S_ .f32 0x00000000#32))

/-- The three graph convolutions as the reference composes them. -/
def embTerm (row col : IVec S800000 32) (w : FVec F S800000 .f32) (x : FVec F S50000x256 .f32)
    (W1 : FVec F S256x128 .f32) (b1 : FVec F S128 .f32) (W2 : FVec F S128x128 .f32) (b2 : FVec F S128 .f32)
    (W3 : FVec F S128x64 .f32) (b3 : FVec F S64 .f32) : FVec F S50000x64 .f32 :=
  addRow64 (sp64 row col w (Host.dotGeneral dot_S50000x128_S128x64_S50000x64_1_0_0_1_n_n none
    (maxZero (addRow128 (sp128 row col w (Host.dotGeneral dot_S50000x128_S128x128_S50000x128_1_0_0_1_n_n none
      (maxZero (addRow128 (sp128 row col w (Host.dotGeneral dot_S50000x256_S256x128_S50000x128_1_0_0_1_n_n none x W1)) b1)) W2)) b2)) W3)) b3

/-- The projection head as the reference composes it. -/
def projTerm (e : FVec F S50000x64 .f32) (P1 : FVec F S64x128 .f32) (pb1 : FVec F S128 .f32) (P2 : FVec F S128x128 .f32)
    (pb2 : FVec F S128 .f32) : FVec F S50000x128 .f32 :=
  addRow128 (Host.dotGeneral dot_S50000x128_S128x128_S50000x128_1_0_0_1_n_n none
    (maxZero (addRow128 (Host.dotGeneral dot_S50000x64_S64x128_S50000x128_1_0_0_1_n_n none e P1) pb1)) P2) pb2

/-- The embedding term of the launch contents of the arguments. -/
def embTermOf (m : (ℓ : Loc nD τ sig) → Buf (Elt F) ℓ) (c : Dev nD) : FVec F S50000x64 .f32 :=
  embTerm (m ((c.tc : Thread nD τ).loc main_arg1)) (m ((c.tc : Thread nD τ).loc main_arg2)) (m ((c.tc : Thread nD τ).loc main_arg3))
    (m ((c.tc : Thread nD τ).loc main_arg0)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

set_option maxRecDepth 8192 in
set_option maxHeartbeats 400000 in
/-- The first result's term is the projection head on the embedding term: the same nest of operations, named. -/
theorem res_out0_eq (m : (ℓ : Loc nD τ sig) → Buf (Elt F) ℓ) (c : Dev nD) :
    res_out0 m c = projTerm (embTermOf m c) (m ((c.tc : Thread nD τ).loc main_arg10)) (m ((c.tc : Thread nD τ).loc main_arg11))
      (m ((c.tc : Thread nD τ).loc main_arg12)) (m ((c.tc : Thread nD τ).loc main_arg13)) := by
  show res_main_v61 m c = _
  unfold res_main_v61
  rfl

set_option maxRecDepth 8192 in
set_option maxHeartbeats 400000 in
/-- The reference's run with its two results named: the second result is the embedding term, the first the projection
    head on it; the arguments are unchanged. For any float values. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v61) = projTerm (embTermOf m c) (m ((c.tc : Thread nD τ).loc main_arg10))
        (m ((c.tc : Thread nD τ).loc main_arg11)) (m ((c.tc : Thread nD τ).loc main_arg12)) (m ((c.tc : Thread nD τ).loc main_arg13))
      ∧ r.2.mem ((c.tc : Thread nD τ).loc main_v52) = embTermOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (res_out0_eq m c), (h c).2.1.trans rfl, (h c).2.2⟩) (Value.run (F := F) m ρ)

end Generic

/-! ## At the extended reals each stage is the specification's -/

/-- The reference's four products are the matrix product: the same contraction of the same two axes. -/
theorem dot_256_128_eq (X : Spec.Mat 50000 256) (W : Spec.Mat 256 128) :
    Host.dotGeneral dot_S50000x256_S256x128_S50000x128_1_0_0_1_n_n none X W = Spec.mm X W := rfl

theorem dot_128_128_eq (X : Spec.Mat 50000 128) (W : Spec.Mat 128 128) :
    Host.dotGeneral dot_S50000x128_S128x128_S50000x128_1_0_0_1_n_n none X W = Spec.mm X W := rfl

theorem dot_128_64_eq (X : Spec.Mat 50000 128) (W : Spec.Mat 128 64) :
    Host.dotGeneral dot_S50000x128_S128x64_S50000x64_1_0_0_1_n_n none X W = Spec.mm X W := rfl

theorem dot_64_128_eq (X : Spec.Mat 50000 64) (W : Spec.Mat 64 128) :
    Host.dotGeneral dot_S50000x64_S64x128_S50000x128_1_0_0_1_n_n none X W = Spec.mm X W := rfl

/-- A vector made a one-row matrix and that row repeated down the rows, read at `(p, q)`, is the vector's entry `q`:
    so adding it adds the vector to every row. -/
theorem addRow128_eq (X : Spec.Mat 50000 128) (b : Spec.Row 128) : addRow128 (F := Ideal) X b = Spec.bias X b := by
  funext i
  show X i + _ = X i + b (ix1 (i 1))
  congr 1
  exact (broadcastInDim_apply _ _ _ i (ix2 0 (i 1)) (by intro a; fin_cases a <;> rfl)).trans
    (broadcastInDim_apply _ _ b (ix2 0 (i 1)) (ix1 (i 1)) (by intro a; fin_cases a; rfl))

theorem addRow64_eq (X : Spec.Mat 50000 64) (b : Spec.Row 64) : addRow64 (F := Ideal) X b = Spec.bias X b := by
  funext i
  show X i + _ = X i + b (ix1 (i 1))
  congr 1
  exact (broadcastInDim_apply _ _ _ i (ix2 0 (i 1)) (by intro a; fin_cases a <;> rfl)).trans
    (broadcastInDim_apply _ _ b (ix2 0 (i 1)) (ix1 (i 1)) (by intro a; fin_cases a; rfl))

/-- The maximum with a zero broadcast to every entry is the rectifier. -/
theorem maxZero_eq (X : Spec.Mat 50000 128) : maxZero (F := Ideal) X = Spec.relu X := by
  funext i
  rfl

/-! ## The two results are the specification's -/

/-- The embedding term is the specification's embedding, the sparse aggregation kept as the function it is. -/
theorem embTerm_eq (row col : IVec S800000 32) (w : FVec Ideal S800000 .f32) (x : Spec.Mat 50000 256)
    (W1 : Spec.Mat 256 128) (b1 : Spec.Row 128) (W2 : Spec.Mat 128 128) (b2 : Spec.Row 128) (W3 : Spec.Mat 128 64) (b3 : Spec.Row 64) :
    embTerm (F := Ideal) row col w x W1 b1 W2 b2 W3 b3 = Spec.emb (sp128 row col w) (sp64 row col w) x W1 b1 W2 b2 W3 b3 := by
  unfold embTerm Spec.emb
  rw [dot_256_128_eq, addRow128_eq, maxZero_eq, dot_128_128_eq, addRow128_eq, maxZero_eq, dot_128_64_eq, addRow64_eq]

/-- The projection term is the specification's projection head. -/
theorem projTerm_eq (e : Spec.Mat 50000 64) (P1 : Spec.Mat 64 128) (pb1 : Spec.Row 128) (P2 : Spec.Mat 128 128) (pb2 : Spec.Row 128) :
    projTerm (F := Ideal) e P1 pb1 P2 pb2 = Spec.proj e P1 pb1 P2 pb2 := by
  unfold projTerm Spec.proj
  rw [dot_64_128_eq, addRow128_eq, maxZero_eq, dot_128_128_eq, addRow128_eq]

/-- The specification's embedding of the launch contents of the arguments: the node features, the three layers'
    weights and biases, the sparse aggregation that of the launch's edge lists and edge weights. -/
def embOf (m : (ℓ : Loc nD τ sig) → Buf (Elt Ideal) ℓ) (c : Dev nD) : Spec.Mat 50000 64 :=
  Spec.emb (sp128 (m ((c.tc : Thread nD τ).loc main_arg1)) (m ((c.tc : Thread nD τ).loc main_arg2)) (m ((c.tc : Thread nD τ).loc main_arg3)))
    (sp64 (m ((c.tc : Thread nD τ).loc main_arg1)) (m ((c.tc : Thread nD τ).loc main_arg2)) (m ((c.tc : Thread nD τ).loc main_arg3)))
    (m ((c.tc : Thread nD τ).loc main_arg0)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The second result: the reference's embedding term of the arguments is the specification's embedding of them. -/
theorem out1_eq (m : (ℓ : Loc nD τ sig) → Buf (Elt Ideal) ℓ) (c : Dev nD) : embTermOf (F := Ideal) m c = embOf m c :=
  embTerm_eq _ _ _ _ _ _ _ _ _ _

/-- The first result: the projection term on the embedding term is the specification's head on its embedding. -/
theorem out0_eq (m : (ℓ : Loc nD τ sig) → Buf (Elt Ideal) ℓ) (c : Dev nD) :
    projTerm (embTermOf (F := Ideal) m c) (m ((c.tc : Thread nD τ).loc main_arg10)) (m ((c.tc : Thread nD τ).loc main_arg11))
      (m ((c.tc : Thread nD τ).loc main_arg12)) (m ((c.tc : Thread nD τ).loc main_arg13))
    = Spec.proj (embOf m c) (m ((c.tc : Thread nD τ).loc main_arg10)) (m ((c.tc : Thread nD τ).loc main_arg11))
      (m ((c.tc : Thread nD τ).loc main_arg12)) (m ((c.tc : Thread nD τ).loc main_arg13)) := by
  rw [out1_eq]
  exact projTerm_eq _ _ _ _ _

/-- At the extended reals, every weakly fair execution of the reference ends with its first result the specification's
    projection head on the specification's embedding of the arguments, its second result that embedding, and the
    arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v61) = Spec.proj (embOf m c) (m ((c.tc : Thread nD τ).loc main_arg10))
        (m ((c.tc : Thread nD τ).loc main_arg11)) (m ((c.tc : Thread nD τ).loc main_arg12)) (m ((c.tc : Thread nD τ).loc main_arg13))
      ∧ r.2.mem ((c.tc : Thread nD τ).loc main_v52) = embOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (out0_eq m c), (h c).2.1.trans (out1_eq m c), (h c).2.2⟩)
    (run_term (F := Ideal) m ρ)

end Cert.ReferenceIdeal.RefValue

end
-- ==== Proof.lean ====
/-
  The certificate of a graph encoder — three graph-convolution layers `h ↦ A · (h · W) + b` (the first two rectified), `A`
  the sparse weighted adjacency, followed by a two-layer projection head — computed by eight TensorCore calls (five matrix
  products on row blocks of 2000 nodes, three of them with the bias and the rectifier fused or in a call of their own)
  around host gathers and scatter-adds, against the same encoder written with whole-array host operations.

  Over the extended reals the two programs compute one function of the arguments: a product accumulated by the matrix
  unit block by block is the host's product (the same sums over the contracted coordinate; narrowing the operands is the
  identity), the bias added to a block of rows is the bias added to those rows of the array, the sparse aggregation is the
  same host computation on both sides and is never opened.  No law that needs finiteness is used: the two sides are the
  same sums in the same grouping, so the precondition is not opened.

  The frames are the generated ones; the kernel program's value is read off its frame's run boundary by boundary
  (Proof/KernelValue.lean over the eight region modules), the reference's off its generated run (Proof/RefValue.lean), both
  as the specification of Proof/Spec.lean.
-/
import proofs.«163416_j36309653520480_1_alg».proof.Defs
import proofs.«163416_j36309653520480_1_alg».proof.Proof.Gen.Kernel
import proofs.«163416_j36309653520480_1_alg».proof.Proof.Gen.KernelIdeal
import proofs.«163416_j36309653520480_1_alg».proof.Proof.Gen.ReferenceIdeal
import proofs.«163416_j36309653520480_1_alg».proof.Proof.Gen.Pre_finite_inputs
import proofs.«163416_j36309653520480_1_alg».proof.Proof.KernelFrame
import proofs.«163416_j36309653520480_1_alg».proof.Proof.KernelIdealFrame
import proofs.«163416_j36309653520480_1_alg».proof.Proof.KernelValue
import proofs.«163416_j36309653520480_1_alg».proof.Proof.RefValue
import Idealize.ShloMosaic.Adequacy
import Idealize.ShloMosaic.Init

noncomputable section

namespace Cert.Proof

open Idealize.ShloMosaic Idealize.SL.Sem

/-- The kernel program as printed runs and leaves its arguments as launched. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference is host operations only: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the arguments both programs end with the specification's projection head and embedding
    of those arguments: the kernel program by its frame's run read boundary by boundary, the reference by its run; the
    sparse aggregation is the same host computation in both (the two programs' dimension records hold the same numbers). -/
theorem algebraic : Cert.algebraic_KernelIdeal_ReferenceIdeal := by
  intro m ρ m' ρ' _ hagree
  refine ⟨_, _, Cert.KernelIdeal.Hand.run_spec m ρ, ?_⟩
  refine (θ_run Cert.ReferenceIdeal.defs _ _).mono (fun _ h c => ?_) (Cert.ReferenceIdeal.RefValue.run_spec m' ρ')
  obtain ⟨e0, e1, e2, e3, e4, e5, e6, e7, e8, e9, e10, e11, e12, e13⟩ := hagree c
  have hemb : Cert.ReferenceIdeal.RefValue.embOf m' c = Cert.KernelIdeal.Hand.embOf m c := by
    rw [Cert.KernelIdeal.Hand.embOf_eq]
    unfold Cert.ReferenceIdeal.RefValue.embOf
    rw [e0, e1, e2, e3, e4, e5, e6, e7, e8, e9]
    rfl
  refine ⟨(h c).1.trans ?_, (h c).2.1.trans hemb, (h c).2.2⟩
  rw [hemb, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
